-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x64 : Shape := ⟨2, ![16, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S16x64 .f32) (main_arg9 : FVec F S64 .f32) (main_v33 : IVec S_ 1) : IVec S_ 1 :=
  let main_v34 : FVec F S16x64 .f32 := Host.absf main_arg8
  let main_cst_12 : FVec F S_ .f32 := constant S_ .f32 0x7F800000#32
  let main_v35 : FVec F S16x64 .f32 := broadcastInDim S16x64 ![] bcast_S_S16x64 main_cst_12
  let main_v36 : IVec S16x64 1 := cmpf .olt main_v34 main_v35
  let main_c_13 : IVec S_ 1 := constantI S_ 1 1#1
  let main_v37 : IVec S_ 1 := (fun x v => Host.reduce IntOp.andi x v reducesTo_S16x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S64 .f32) (main_arg6 : FVec F S128x16 .f32) (main_arg7 : FVec F S16 .f32) (main_arg8 : FVec F S16x64 .f32) (main_arg9 : FVec F S64 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x16 .f32 := Host.absf main_arg6
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x3200000 32) (main_arg2 : FVec F S128x16 .f32) (main_arg3 : FVec F S16 .f32) (main_arg4 : FVec F S16x64 .f32) (main_arg5 : FVec F S64 .f32) (main_arg6 : FVec F S128x16 .f32) (main_arg7 : FVec F S16 .f32) (main_arg8 : FVec F S16x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x64 .f32 := Host.absf main_arg4
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x64 : Shape := ⟨2, ![16, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S1x16 : Shape := ⟨2, ![1, 16]⟩
abbrev S1x64 : Shape := ⟨2, ![1, 64]⟩
abbrev S100000x16 : Shape := ⟨2, ![100000, 16]⟩
abbrev S5000x128 : Shape := ⟨2, ![5000, 128]⟩
abbrev S5000x16 : Shape := ⟨2, ![5000, 16]⟩
abbrev S3300000x16 : Shape := ⟨2, ![3300000, 16]⟩
abbrev S100000x64 : Shape := ⟨2, ![100000, 64]⟩
abbrev S5000x64 : Shape := ⟨2, ![5000, 64]⟩
abbrev S3300000x64 : Shape := ⟨2, ![3300000, 64]⟩

abbrev nBuf : Space → Nat
  | .hbm => 91
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S128x16, .f32⟩
  | .hbm, ⟨7, _⟩ => ⟨S16, .f32⟩
  | .hbm, ⟨8, _⟩ => ⟨S16x64, .f32⟩
  | .hbm, ⟨9, _⟩ => ⟨S64, .f32⟩
  | .hbm, ⟨10, _⟩ => ⟨S100000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S1x3200000, .i32⟩
  | .hbm, ⟨15, _⟩ => ⟨S3200000, .i32⟩
  | .hbm, ⟨16, _⟩ => ⟨S3300000, .i32⟩
  | .hbm, ⟨17, _⟩ => ⟨S_, .f32⟩
  | .hbm, ⟨18, _⟩ => ⟨S3300000, .f32⟩
  | .hbm, ⟨19, _⟩ => ⟨S_, .f32⟩
  | .hbm, ⟨20, _⟩ => ⟨S100000, .f32⟩
  | .hbm, ⟨21, _⟩ => ⟨S3300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S1x16, .f32⟩
  | .hbm, ⟨51, _⟩ => ⟨S1x16, .f32⟩
  | .hbm, ⟨52, _⟩ => ⟨S1x64, .f32⟩
  | .hbm, ⟨53, _⟩ => ⟨S1x64, .f32⟩
  | .hbm, ⟨54, _⟩ => ⟨S100000x16, .f32⟩
  | .hbm, ⟨55, _⟩ => ⟨S100000x16, .f32⟩
  | .hbm, ⟨56, _⟩ => ⟨S_, .i32⟩
  | .hbm, ⟨57, _⟩ => ⟨S3300000, .i32⟩
  | .hbm, ⟨58, _⟩ => ⟨S3300000, .i1⟩
  | .hbm, ⟨59, _⟩ => ⟨S_, .i32⟩
  | .hbm, ⟨60, _⟩ => ⟨S3300000, .i32⟩
  | .hbm, ⟨61, _⟩ => ⟨S3300000, .i32⟩
  | .hbm, ⟨62, _⟩ => ⟨S3300000, .i32⟩
  | .hbm, ⟨63, _⟩ => ⟨S3300000x1, .i32⟩
  | .hbm, ⟨64, _⟩ => ⟨S3300000x16, .f32⟩
  | .hbm, ⟨65, _⟩ => ⟨S3300000x1, .f32⟩
  | .hbm, ⟨66, _⟩ => ⟨S3300000x16, .f32⟩
  | .hbm, ⟨67, _⟩ => ⟨S3300000x16, .f32⟩
  | .hbm, ⟨68, _⟩ => ⟨S_, .f32⟩
  | .hbm, ⟨69, _⟩ => ⟨S100000x16, .f32⟩
  | .hbm, ⟨70, _⟩ => ⟨S3300000x1, .i32⟩
  | .hbm, ⟨71, _⟩ => ⟨S100000x16, .f32⟩
  | .hbm, ⟨72, _⟩ => ⟨S100000x64, .f32⟩
  | .hbm, ⟨73, _⟩ => ⟨S100000x64, .f32⟩
  | .hbm, ⟨74, _⟩ => ⟨S_, .i32⟩
  | .hbm, ⟨75, _⟩ => ⟨S3300000, .i32⟩
  | .hbm, ⟨76, _⟩ => ⟨S3300000, .i1⟩
  | .hbm, ⟨77, _⟩ => ⟨S_, .i32⟩
  | .hbm, ⟨78, _⟩ => ⟨S3300000, .i32⟩
  | .hbm, ⟨79, _⟩ => ⟨S3300000, .i32⟩
  | .hbm, ⟨80, _⟩ => ⟨S3300000, .i32⟩
  | .hbm, ⟨81, _⟩ => ⟨S3300000x1, .i32⟩
  | .hbm, ⟨82, _⟩ => ⟨S3300000x64, .f32⟩
  | .hbm, ⟨83, _⟩ => ⟨S3300000x1, .f32⟩
  | .hbm, ⟨84, _⟩ => ⟨S3300000x64, .f32⟩
  | .hbm, ⟨85, _⟩ => ⟨S3300000x64, .f32⟩
  | .hbm, ⟨86, _⟩ => ⟨S_, .f32⟩
  | .hbm, ⟨87, _⟩ => ⟨S100000x64, .f32⟩
  | .hbm, ⟨88, _⟩ => ⟨S3300000x1, .i32⟩
  | .hbm, ⟨89, _⟩ => ⟨S100000x64, .f32⟩
  | .hbm, ⟨90, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S128x16, .f32⟩
  | .local _ .vmem, ⟨4, _⟩ => ⟨S1x16, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S1x16, .f32⟩
  | .local _ .vmem, ⟨12, _⟩ => ⟨S5000x16, .f32⟩
  | .local _ .vmem, ⟨13, _⟩ => ⟨S5000x16, .f32⟩
  | .local _ .vmem, ⟨14, _⟩ => ⟨S16x64, .f32⟩
  | .local _ .vmem, ⟨15, _⟩ => ⟨S16x64, .f32⟩
  | .local _ .vmem, ⟨16, _⟩ => ⟨S1x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34_0 : Ref sig .tc := ⟨.hbm, 54, rfl⟩
abbrev main_v34_1 : Ref sig .tc := ⟨.hbm, 55, rfl⟩
abbrev main_c_6 : Ref sig .tc := ⟨.hbm, 56, rfl⟩
abbrev main_v35 : Ref sig .tc := ⟨.hbm, 57, rfl⟩
abbrev main_v36 : Ref sig .tc := ⟨.hbm, 58, rfl⟩
abbrev main_c_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48_0 : Ref sig .tc := ⟨.hbm, 72, rfl⟩
abbrev main_v48_1 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc1_sem7_0 : DmaSem sig := 19
abbrev cc1_sem7_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem2_1 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S16x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S16_S1x16 : S16.ShapeCasts S1x16
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S5000x16_S5000x16 : S5000x16.ShapeCasts S5000x16
  inb_S16x64_S16x64_0_0 : ∀ a, (![0, 0] : Fin 2 → Nat) a + S16x64.size a ≤ S16x64.size a
  h_S16x64 : 0 < S16x64.numel
  inb_S5000x64_S5000x64_0_0 : ∀ a, (![0, 0] : Fin 2 → Nat) a + S5000x64.size a ≤ S5000x64.size a
  h_S5000x64 : 0 < S5000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S5000x64_S5000x64 : S5000x64.ShapeCasts S5000x64
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x128_S128x16_S5000x16_1_0_0_1_n_n_wf : DotDims.WF S5000x128 S128x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x64_S5000x64_1_0_0_1_n_n_wf : DotDims.WF S5000x16 S16x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x16.size a ≤ S100000x16.size a
  hwx0_4 : ∀ i : grid0.Coords, EltTy.bits .f32 = 32 ∨ (Rect.block (s := S100000x16) S5000x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x16.size a ≤ S100000x16.size a
  hwx0_5 : ∀ i : grid0.Coords, EltTy.bits .f32 = 32 ∨ (Rect.block (s := S100000x16) S5000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x64.size a ≤ S16x64.size a
  hwx1_3 : ∀ i : grid1.Coords, EltTy.bits .f32 = 32 ∨ (Rect.block (s := S16x64) S16x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x64.size a ≤ S16x64.size a
  hwx1_4 : ∀ i : grid1.Coords, EltTy.bits .f32 = 32 ∨ (Rect.block (s := S16x64) S16x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34_0) S5000x16.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v34_1) S5000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34_1) S5000x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S16x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S16x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v48_0) S5000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v48_1) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v61) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48_1) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v62) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x64 : Shape := ⟨2, ![16, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x16 : Shape := ⟨2, ![100000, 16]⟩
abbrev S1x16 : Shape := ⟨2, ![1, 16]⟩
abbrev S_ : Shape := ⟨0, ![]⟩
abbrev S3300000x1 : Shape := ⟨2, ![3300000, 1]⟩
abbrev S3300000x16 : Shape := ⟨2, ![3300000, 16]⟩
abbrev S100000x64 : Shape := ⟨2, ![100000, 64]⟩
abbrev S1x64 : Shape := ⟨2, ![1, 64]⟩
abbrev S3300000x64 : Shape := ⟨2, ![3300000, 64]⟩

abbrev nBuf : Space → Nat
  | .hbm => 139
  | .vmem => 0
  | .smem => 0
  | _ => 0

abbrev hbmTy0_0 (i : Nat) : BufTy := match i % 128 with
  | 0 => ⟨S100000x128, .f32⟩
  | 1 => ⟨S2x3200000, .i32⟩
  | 2 => ⟨S128x16, .f32⟩
  | 3 => ⟨S16, .f32⟩
  | 4 => ⟨S16x64, .f32⟩
  | 5 => ⟨S64, .f32⟩
  | 6 => ⟨S128x16, .f32⟩
  | 7 => ⟨S16, .f32⟩
  | 8 => ⟨S16x64, .f32⟩
  | 9 => ⟨S64, .f32⟩
  | 10 => ⟨S100000, .i32⟩
  | 11 => ⟨S1x3200000, .i32⟩
  | 12 => ⟨S3200000, .i32⟩
  | 13 => ⟨S3300000, .i32⟩
  | 14 => ⟨S1x3200000, .i32⟩
  | 15 => ⟨S3200000, .i32⟩
  | 16 => ⟨S3300000, .i32⟩
  | 17 => ⟨S100000x16, .f32⟩
  | 18 => ⟨S1x16, .f32⟩
  | 19 => ⟨S100000x16, .f32⟩
  | 20 => ⟨S100000x16, .f32⟩
  | 21 => ⟨S100000x16, .f32⟩
  | 22 => ⟨S_, .f32⟩
  | 23 => ⟨S3300000, .f32⟩
  | 24 => ⟨S_, .f32⟩
  | 25 => ⟨S100000, .f32⟩
  | 26 => ⟨S3300000x1, .i32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S3300000, .i32⟩
  | 38 => ⟨S3300000, .i1⟩
  | 39 => ⟨S_, .i32⟩
  | 40 => ⟨S3300000, .i32⟩
  | 41 => ⟨S3300000, .i32⟩
  | 42 => ⟨S3300000, .i32⟩
  | 43 => ⟨S3300000x1, .i32⟩
  | 44 => ⟨S3300000, .f32⟩
  | 45 => ⟨S_, .i32⟩
  | 46 => ⟨S3300000, .i32⟩
  | 47 => ⟨S3300000, .i1⟩
  | 48 => ⟨S_, .i32⟩
  | 49 => ⟨S3300000, .i32⟩
  | 50 => ⟨S3300000, .i32⟩
  | 51 => ⟨S3300000, .i32⟩
  | 52 => ⟨S3300000x1, .i32⟩
  | 53 => ⟨S3300000, .f32⟩
  | 54 => ⟨S3300000, .f32⟩
  | 55 => ⟨S_, .i32⟩
  | 56 => ⟨S3300000, .i32⟩
  | 57 => ⟨S3300000, .i1⟩
  | 58 => ⟨S_, .i32⟩
  | 59 => ⟨S3300000, .i32⟩
  | 60 => ⟨S3300000, .i32⟩
  | 61 => ⟨S3300000, .i32⟩
  | 62 => ⟨S3300000x1, .i32⟩
  | 63 => ⟨S3300000x16, .f32⟩
  | 64 => ⟨S3300000x1, .f32⟩
  | 65 => ⟨S3300000x16, .f32⟩
  | 66 => ⟨S3300000x16, .f32⟩
  | 67 => ⟨S_, .f32⟩
  | 68 => ⟨S100000x16, .f32⟩
  | 69 => ⟨S3300000x1, .i32⟩
  | 70 => ⟨S100000x16, .f32⟩
  | 71 => ⟨S1x16, .f32⟩
  | 72 => ⟨S100000x16, .f32⟩
  | 73 => ⟨S100000x16, .f32⟩
  | 74 => ⟨S_, .f32⟩
  | 75 => ⟨S100000x16, .f32⟩
  | 76 => ⟨S100000x16, .f32⟩
  | 77 => ⟨S100000x16, .f32⟩
  | 78 => ⟨S100000x64, .f32⟩
  | 79 => ⟨S1x64, .f32⟩
  | 80 => ⟨S100000x64, .f32⟩
  | 81 => ⟨S100000x64, .f32⟩
  | 82 => ⟨S100000x64, .f32⟩
  | 83 => ⟨S_, .f32⟩
  | 84 => ⟨S3300000, .f32⟩
  | 85 => ⟨S_, .f32⟩
  | 86 => ⟨S100000, .f32⟩
  | 87 => ⟨S3300000x1, .i32⟩
  | 88 => ⟨S100000, .f32⟩
  | 89 => ⟨S_, .f32⟩
  | 90 => ⟨S100000, .f32⟩
  | 91 => ⟨S100000, .i1⟩
  | 92 => ⟨S100000, .f32⟩
  | 93 => ⟨S_, .f32⟩
  | 94 => ⟨S_, .f32⟩
  | 95 => ⟨S100000, .f32⟩
  | 96 => ⟨S100000, .f32⟩
  | 97 => ⟨S_, .i32⟩
  | 98 => ⟨S3300000, .i32⟩
  | 99 => ⟨S3300000, .i1⟩
  | 100 => ⟨S_, .i32⟩
  | 101 => ⟨S3300000, .i32⟩
  | 102 => ⟨S3300000, .i32⟩
  | 103 => ⟨S3300000, .i32⟩
  | 104 => ⟨S3300000x1, .i32⟩
  | 105 => ⟨S3300000, .f32⟩
  | 106 => ⟨S_, .i32⟩
  | 107 => ⟨S3300000, .i32⟩
  | 108 => ⟨S3300000, .i1⟩
  | 109 => ⟨S_, .i32⟩
  | 110 => ⟨S3300000, .i32⟩
  | 111 => ⟨S3300000, .i32⟩
  | 112 => ⟨S3300000, .i32⟩
  | 113 => ⟨S3300000x1, .i32⟩
  | 114 => ⟨S3300000, .f32⟩
  | 115 => ⟨S3300000, .f32⟩
  | 116 => ⟨S_, .i32⟩
  | 117 => ⟨S3300000, .i32⟩
  | 118 => ⟨S3300000, .i1⟩
  | 119 => ⟨S_, .i32⟩
  | 120 => ⟨S3300000, .i32⟩
  | 121 => ⟨S3300000, .i32⟩
  | 122 => ⟨S3300000, .i32⟩
  | 123 => ⟨S3300000x1, .i32⟩
  | 124 => ⟨S3300000x64, .f32⟩
  | 125 => ⟨S3300000x1, .f32⟩
  | 126 => ⟨S3300000x64, .f32⟩
  | 127 => ⟨S3300000x64, .f32⟩
  | _ => ⟨S100000x128, .f32⟩

abbrev hbmTy0_1 (i : Nat) : BufTy := match i % 128 with
  | 0 => ⟨S_, .f32⟩
  | 1 => ⟨S100000x64, .f32⟩
  | 2 => ⟨S3300000x1, .i32⟩
  | 3 => ⟨S100000x64, .f32⟩
  | 4 => ⟨S1x64, .f32⟩
  | 5 => ⟨S100000x64, .f32⟩
  | 6 => ⟨S100000x64, .f32⟩
  | 7 => ⟨S_, .f32⟩
  | 8 => ⟨S100000x64, .f32⟩
  | 9 => ⟨S100000x64, .f32⟩
  | 10 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_c : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_4 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call1_cst : Ref sig .tc := ⟨.hbm, 74, rfl⟩
abbrev main_call1_v0 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_9 : Ref sig .tc := ⟨.hbm, 83, rfl⟩
abbrev main_v58 : Ref sig .tc := ⟨.hbm, 84, rfl⟩
abbrev main_cst_10 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_11 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_12 : Ref sig .tc := ⟨.hbm, 93, rfl⟩
abbrev main_call2_v0 : Ref sig .tc := ⟨.hbm, 94, rfl⟩
abbrev main_call2_v1 : Ref sig .tc := ⟨.hbm, 95, rfl⟩
abbrev main_v65 : Ref sig .tc := ⟨.hbm, 96, rfl⟩
abbrev main_c_13 : Ref sig .tc := ⟨.hbm, 97, rfl⟩
abbrev main_v66 : Ref sig .tc := ⟨.hbm, 98, rfl⟩
abbrev main_v67 : Ref sig .tc := ⟨.hbm, 99, rfl⟩
abbrev main_c_14 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_15 : Ref sig .tc := ⟨.hbm, 106, rfl⟩
abbrev main_v73 : Ref sig .tc := ⟨.hbm, 107, rfl⟩
abbrev main_v74 : Ref sig .tc := ⟨.hbm, 108, rfl⟩
abbrev main_c_16 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_c_17 : Ref sig .tc := ⟨.hbm, 116, rfl⟩
abbrev main_v81 : Ref sig .tc := ⟨.hbm, 117, rfl⟩
abbrev main_v82 : Ref sig .tc := ⟨.hbm, 118, rfl⟩
abbrev main_c_18 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_19 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_call3_cst : Ref sig .tc := ⟨.hbm, 135, rfl⟩
abbrev main_call3_v0 : Ref sig .tc := ⟨.hbm, 136, rfl⟩
abbrev main_v97 : Ref sig .tc := ⟨.hbm, 137, rfl⟩
abbrev main_v98 : Ref sig .tc := ⟨.hbm, 138, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  dot_S100000x128_S128x16_S100000x16_1_0_0_1_n_n_wf : DotDims.WF S100000x128 S128x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x64_S100000x64_1_0_0_1_n_n_wf : DotDims.WF S100000x16 S16x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.LibColToRow.lean ====
/-
  A column laid out again as a row and repeated down the rows, read at an entry (a general lemma: nothing here depends
  on a program).

  A column [A, 1] and a row [1, A] hold the same A entries in the same row-major order, so the row at (0, q) is the
  column at (q, 0).  A row [1, A] broadcast to B rows holds at (p, q) the row's entry q.  Together: a column turned into
  a row and broadcast to [B, A] holds at (p, q) the column's entry q — the value that depends on the column index
  alone.  Any sizes A, B.
-/
import Idealize.ShloMosaic.Lib.ValueIdx
import Idealize.ShloMosaic.Lib.Pipeline.Value

noncomputable section

namespace Cert.Lib.ColToRow

open Idealize.ShloMosaic Idealize.ShloMosaic.ValueIdx

/-- The row [1, A] made of a column [A, 1], at (0, q), is the column at (q, 0). -/
theorem colAsRow_apply {α : Type} {A : Nat} (c : (⟨2, ![A, 1]⟩ : Shape).Idx → α)
    (h : (⟨2, ![A, 1]⟩ : Shape).ShapeCasts ⟨2, ![1, A]⟩) (z : Fin 1) (q : Fin A) :
    shapeCast ⟨2, ![1, A]⟩ c h (ix2 z q) = c (ix2 q (0 : Fin 1)) := by
  refine shapeCast_apply c h (ix2 z q) (ix2 q (0 : Fin 1)) ?_
  rw [Shape.rowMajor_val_two, Shape.rowMajor_val_two]
  obtain rfl : z = 0 := Subsingleton.elim _ _
  show q.val * 1 + 0 = 0 * A + q.val
  omega

/-- A row [1, A] broadcast to B rows, at (p, q), is the row at (0, q). -/
theorem bcastRowMat_apply {α : Type} {A B : Nat} (r : (⟨2, ![1, A]⟩ : Shape).Idx → α)
    (h : (⟨2, ![1, A]⟩ : Shape).Broadcasts ⟨2, ![B, A]⟩) (p : Fin B) (q : Fin A) :
    broadcastTo ⟨2, ![B, A]⟩ r h (ix2 p q) = r (ix2 (0 : Fin 1) q) := by
  refine broadcastTo_apply r h (ix2 p q) (ix2 (0 : Fin 1) q) ?_
  intro a
  match a with
  | ⟨0, _⟩ => simp
  | ⟨1, _⟩ =>
    show q.val = if A = 1 then 0 else q.val
    split
    · have := q.isLt; omega
    · rfl

/-- A column turned into a row and broadcast to B rows, at (p, q), is the column at (q, 0). -/
theorem colAsRowBcast_apply {α : Type} {A B : Nat} (c : (⟨2, ![A, 1]⟩ : Shape).Idx → α)
    (h1 : (⟨2, ![A, 1]⟩ : Shape).ShapeCasts ⟨2, ![1, A]⟩) (h2 : (⟨2, ![1, A]⟩ : Shape).Broadcasts ⟨2, ![B, A]⟩)
    (p : Fin B) (q : Fin A) :
    broadcastTo ⟨2, ![B, A]⟩ (shapeCast ⟨2, ![1, A]⟩ c h1) h2 (ix2 p q) = c (ix2 q (0 : Fin 1)) :=
  (bcastRowMat_apply _ h2 p q).trans (colAsRow_apply c h1 0 q)

end Cert.Lib.ColToRow

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.LibDenseRows.lean ====
/-
  The dense layers of a two-layer graph convolution with linear residuals, as whole-array functions over the
  extended reals, for any sizes.

  With x an [A, K] matrix, w a [K, C] matrix, r a one-row matrix [1, C] and a, d matrices [A, C]:
    lin x w       (p, q) = sum over k < K of x (p, k) * w (k, q)          -- the product x·w
    affine x w r  (p, q) = lin x w (p, q) + r (0, q)                       -- x·w + r, r repeated down the rows
    rect a r d    (p, q) = max (a (p, q) + r (0, q)) 0 + d (p, q)          -- relu (a + r) + d
  Each depends on row p of its row-indexed operands only, so a block of rows of the result is the same function of
  the same block of rows of the operands ('lin_rows', 'affine_rows', 'rect_rows').

  A kernel body computes them on a block: a matrix-unit product of the operands narrowed to bf16 into a zero
  accumulator is 'lin' (narrowing is the identity on the extended reals); a one-row matrix recast to its own shape and
  broadcast down the rows, added, gives 'affine'; the maximum against the splat of zero and the residual give 'rect'.
  The host computes them on the whole arrays: dot_general is 'lin'.
-/
import Idealize.ShloMosaic.Lib.ValueIdx
import Idealize.ShloMosaic.Lib.Pipeline.Value
import Idealize.ShloMosaic.PureOps.Ideal.Laws
import proofs.«102944_j45518063403398_1_alg».proof.Proof.LibMatmul
import proofs.«102944_j45518063403398_1_alg».proof.Proof.LibColToRow
import proofs.«102944_j45518063403398_1_alg».proof.Proof.LibLayout

noncomputable section

namespace Cert.Gcn

open Idealize.ShloMosaic Idealize.ShloMosaic.ValueIdx

/-- An [A, C] matrix of extended reals. -/
abbrev Mat (A C : Nat) : Type := (⟨2, ![A, C]⟩ : Shape).Idx → EReal

variable {A B K C : Nat}

/-- The product x·w. -/
def lin (x : Mat A K) (w : Mat K C) : Mat A C :=
  fun i => ∑ k : Fin K, x (ix2 (i 0 : Fin A) k) * w (ix2 k (i 1 : Fin C))

/-- x·w + r, the one row r repeated down the rows. -/
def affine (x : Mat A K) (w : Mat K C) (r : Mat 1 C) : Mat A C :=
  fun i => lin x w i + r (ix2 (0 : Fin 1) (i 1 : Fin C))

/-- relu (a + r) + d, the one row r repeated down the rows. -/
def rect (a : Mat A C) (r : Mat 1 C) (d : Mat A C) : Mat A C :=
  fun i => max (a i + r (ix2 (0 : Fin 1) (i 1 : Fin C))) 0 + d i

theorem lin_apply (x : Mat A K) (w : Mat K C) (p : Fin A) (q : Fin C) :
    lin x w (ix2 p q) = ∑ k : Fin K, x (ix2 p k) * w (ix2 k q) := rfl

theorem affine_apply (x : Mat A K) (w : Mat K C) (r : Mat 1 C) (p : Fin A) (q : Fin C) :
    affine x w r (ix2 p q) = (∑ k : Fin K, x (ix2 p k) * w (ix2 k q)) + r (ix2 (0 : Fin 1) q) := rfl

theorem rect_apply (a : Mat A C) (r : Mat 1 C) (d : Mat A C) (p : Fin A) (q : Fin C) :
    rect a r d (ix2 p q) = max (a (ix2 p q) + r (ix2 (0 : Fin 1) q)) 0 + d (ix2 p q) := rfl

/-! ## Rows: a block of rows of the result from the same block of rows of the operands -/

/-- Rows `ρ p` of the big product are the product of those rows. -/
theorem lin_rows (X : Mat A K) (W : Mat K C) (xb : Mat B K) (wb : Mat K C) (ρ : Fin B → Fin A)
    (hx : ∀ p k, xb (ix2 p k) = X (ix2 (ρ p) k)) (hw : ∀ k q, wb (ix2 k q) = W (ix2 k q)) (p : Fin B) (q : Fin C) :
    lin xb wb (ix2 p q) = lin X W (ix2 (ρ p) q) := by
  rw [lin_apply, lin_apply]
  exact Finset.sum_congr rfl fun k _ => by rw [hx p k, hw k q]

theorem affine_rows (X : Mat A K) (W : Mat K C) (R : Mat 1 C) (xb : Mat B K) (wb : Mat K C) (rb : Mat 1 C) (ρ : Fin B → Fin A)
    (hx : ∀ p k, xb (ix2 p k) = X (ix2 (ρ p) k)) (hw : ∀ k q, wb (ix2 k q) = W (ix2 k q))
    (hr : ∀ q, rb (ix2 (0 : Fin 1) q) = R (ix2 (0 : Fin 1) q)) (p : Fin B) (q : Fin C) :
    affine xb wb rb (ix2 p q) = affine X W R (ix2 (ρ p) q) := by
  rw [affine_apply, affine_apply, hr q]
  exact congrArg (· + R (ix2 (0 : Fin 1) q)) (Finset.sum_congr rfl fun k _ => by rw [hx p k, hw k q])

theorem rect_rows (Aa : Mat A C) (R : Mat 1 C) (D : Mat A C) (ab : Mat B C) (rb : Mat 1 C) (db : Mat B C) (ρ : Fin B → Fin A)
    (ha : ∀ p q, ab (ix2 p q) = Aa (ix2 (ρ p) q)) (hr : ∀ q, rb (ix2 (0 : Fin 1) q) = R (ix2 (0 : Fin 1) q))
    (hd : ∀ p q, db (ix2 p q) = D (ix2 (ρ p) q)) (p : Fin B) (q : Fin C) :
    rect ab rb db (ix2 p q) = rect Aa R D (ix2 (ρ p) q) := by
  rw [rect_apply, rect_apply, ha p q, hr q, hd p q]

/-! ## The kernel's spelling, on a block -/

/-- A matrix-unit product into the zero accumulator is the product (whatever formats the operands were narrowed to). -/
theorem matmul_eq_lin {φ₁ φ₂ : FTy} (l : FVec Ideal ⟨2, ![A, K]⟩ φ₁) (r : FVec Ideal ⟨2, ![K, C]⟩ φ₂) :
    FloatOps.matmul (DotDims.plain A K C) none l r (constant ⟨2, ![A, C]⟩ .f32 0x00000000#32) = lin l r := by
  funext i
  obtain ⟨p, q, rfl⟩ : ∃ (p : Fin A) (q : Fin C), i = ix2 p q := ⟨i 0, i 1, eq_ix2 i⟩
  exact Cert.Lib.Matmul.matmul_zero_apply none l r p q

/-- The product plus a one-row matrix recast to its own shape and broadcast down the rows. -/
theorem addRow_eq_affine (m : FVec Ideal ⟨2, ![A, C]⟩ .f32) (x : Mat A K) (w : Mat K C) (hm : m = lin x w)
    (r : FVec Ideal ⟨2, ![1, C]⟩ .f32) (hs : (⟨2, ![1, C]⟩ : Shape).ShapeCasts ⟨2, ![1, C]⟩)
    (hb : (⟨2, ![1, C]⟩ : Shape).Broadcasts ⟨2, ![A, C]⟩) :
    addf m (broadcastTo ⟨2, ![A, C]⟩ (shapeCast ⟨2, ![1, C]⟩ r hs) hb) = affine x w r := by
  subst hm
  funext i
  obtain ⟨p, q, rfl⟩ : ∃ (p : Fin A) (q : Fin C), i = ix2 p q := ⟨i 0, i 1, eq_ix2 i⟩
  rw [shapeCast_self]
  show lin x w (ix2 p q) + broadcastTo ⟨2, ![A, C]⟩ r hb (ix2 p q) = _
  rw [Cert.Lib.ColToRow.bcastRowMat_apply r hb p q]
  rfl

/-- relu (a + r) + d in the kernel's spelling: every operand recast to its own shape, the row broadcast down, the maximum
    against the splat of the zero word, the residual added. -/
theorem body_eq_rect (a d : FVec Ideal ⟨2, ![A, C]⟩ .f32) (r : FVec Ideal ⟨2, ![1, C]⟩ .f32)
    (ha : (⟨2, ![A, C]⟩ : Shape).ShapeCasts ⟨2, ![A, C]⟩) (hs : (⟨2, ![1, C]⟩ : Shape).ShapeCasts ⟨2, ![1, C]⟩)
    (hb : (⟨2, ![1, C]⟩ : Shape).Broadcasts ⟨2, ![A, C]⟩) :
    addf (maximumf (addf (shapeCast ⟨2, ![A, C]⟩ a ha) (broadcastTo ⟨2, ![A, C]⟩ (shapeCast ⟨2, ![1, C]⟩ r hs) hb))
        (broadcast ⟨2, ![A, C]⟩ (Scalar.ofBits (F := Ideal) .f32 0x00000000#32))) (shapeCast ⟨2, ![A, C]⟩ d ha)
      = rect a r d := by
  funext i
  obtain ⟨p, q, rfl⟩ : ∃ (p : Fin A) (q : Fin C), i = ix2 p q := ⟨i 0, i 1, eq_ix2 i⟩
  rw [shapeCast_self, shapeCast_self, shapeCast_self]
  show max (a (ix2 p q) + broadcastTo ⟨2, ![A, C]⟩ r hb (ix2 p q)) (Ideal.ofBits .f32 0x00000000#32) + d (ix2 p q) = _
  rw [Cert.Lib.ColToRow.bcastRowMat_apply r hb p q, Ideal.ofBits_zero_f32]
  rfl

/-! ## The host's spelling, on the whole arrays -/

/-- The host's dot_general is the product. -/
theorem dotGeneral_eq_lin {φ₁ φ₂ : FTy} (sched : HostSchedule) (l : FVec Ideal ⟨2, ![A, K]⟩ φ₁) (r : FVec Ideal ⟨2, ![K, C]⟩ φ₂) :
    FloatOps.dotGeneral (DotDims.plain A K C) none sched l r = lin l r := by
  funext i
  obtain ⟨p, q, rfl⟩ : ∃ (p : Fin A) (q : Fin C), i = ix2 p q := ⟨i 0, i 1, eq_ix2 i⟩
  exact Cert.Lib.Matmul.dotGeneral_apply none sched l r p q

/-- The host's x·w + r: dot_general plus the one row spread over the rows by broadcast_in_dim. -/
theorem host_affine (sched : HostSchedule) (l : FVec Ideal ⟨2, ![A, K]⟩ .f32) (r : FVec Ideal ⟨2, ![K, C]⟩ .f32)
    (R : FVec Ideal ⟨2, ![1, C]⟩ .f32) (hb : (⟨2, ![1, C]⟩ : Shape).BroadcastsInDim ⟨2, ![A, C]⟩ ![0, 1]) :
    addf (FloatOps.dotGeneral (DotDims.plain A K C) none sched l r) (broadcastInDim ⟨2, ![A, C]⟩ ![0, 1] hb R) = affine l r R := by
  funext i
  obtain ⟨p, q, rfl⟩ : ∃ (p : Fin A) (q : Fin C), i = ix2 p q := ⟨i 0, i 1, eq_ix2 i⟩
  show FloatOps.dotGeneral (DotDims.plain A K C) none sched l r (ix2 p q) + broadcastInDim ⟨2, ![A, C]⟩ ![0, 1] hb R (ix2 p q) = _
  rw [Cert.Lib.Matmul.dotGeneral_apply none sched l r p q,
    broadcastInDim_apply ![0, 1] hb R (ix2 p q) (ix2 (0 : Fin 1) q) (fun a => by
      match a with
      | ⟨0, _⟩ => simp
      | ⟨1, _⟩ =>
        show q.val = if C = 1 then 0 else q.val
        split
        · have := q.isLt; omega
        · rfl)]
  rfl

/-- The host's relu (a + r) + d: the one row spread over the rows, the maximum against the spread zero, the residual. -/
theorem host_rect (a d : FVec Ideal ⟨2, ![A, C]⟩ .f32) (R : FVec Ideal ⟨2, ![1, C]⟩ .f32)
    (hb : (⟨2, ![1, C]⟩ : Shape).BroadcastsInDim ⟨2, ![A, C]⟩ ![0, 1])
    (hz : (⟨0, ![]⟩ : Shape).BroadcastsInDim ⟨2, ![A, C]⟩ ![]) :
    addf (maximumf (addf a (broadcastInDim ⟨2, ![A, C]⟩ ![0, 1] hb R))
        (broadcastInDim ⟨2, ![A, C]⟩ ![] hz (constant (F := Ideal) ⟨0, ![]⟩ .f32 0x00000000#32))) d = rect a R d := by
  funext i
  obtain ⟨p, q, rfl⟩ : ∃ (p : Fin A) (q : Fin C), i = ix2 p q := ⟨i 0, i 1, eq_ix2 i⟩
  show max (a (ix2 p q) + broadcastInDim ⟨2, ![A, C]⟩ ![0, 1] hb R (ix2 p q))
      (broadcastInDim ⟨2, ![A, C]⟩ ![] hz (constant (F := Ideal) ⟨0, ![]⟩ .f32 0x00000000#32) (ix2 p q)) + d (ix2 p q) = _
  rw [broadcastInDim_apply ![0, 1] hb R (ix2 p q) (ix2 (0 : Fin 1) q) (fun a => by
      match a with
      | ⟨0, _⟩ => simp
      | ⟨1, _⟩ =>
        show q.val = if C = 1 then 0 else q.val
        split
        · have := q.isLt; omega
        · rfl),
    broadcastInDim_apply ![] hz (constant (F := Ideal) ⟨0, ![]⟩ .f32 0x00000000#32) (ix2 p q) ix0 (fun a => a.elim0)]
  show max (a (ix2 p q) + R (ix2 (0 : Fin 1) q)) (Ideal.ofBits .f32 0x00000000#32) + d (ix2 p q) = _
  rw [Ideal.ofBits_zero_f32]
  rfl

/-- A vector laid out as one row in two ways, by a recast and by a broadcast along the new axis: the same row. -/
theorem rowCast_eq_rowBcast {α : Type} (v : (⟨1, ![C]⟩ : Shape).Idx → α)
    (h1 : (⟨1, ![C]⟩ : Shape).ShapeCasts ⟨2, ![1, C]⟩) (h2 : (⟨1, ![C]⟩ : Shape).BroadcastsInDim ⟨2, ![1, C]⟩ ![1]) :
    shapeCast ⟨2, ![1, C]⟩ v h1 = broadcastInDim ⟨2, ![1, C]⟩ ![1] h2 v := by
  funext i
  obtain ⟨z, q, rfl⟩ : ∃ (z : Fin 1) (q : Fin C), i = ix2 z q := ⟨i 0, i 1, eq_ix2 i⟩
  rw [Cert.Lib.Layout.rowCast_apply v h1 z q,
    broadcastInDim_apply ![1] h2 v (ix2 z q) (ix1 q) (fun a => by
      match a with
      | ⟨0, _⟩ =>
        show q.val = if C = 1 then 0 else q.val
        split
        · have := q.isLt; omega
        · rfl)]

end Cert.Gcn

end
-- ==== Proof.Region0.lean ====
/-
  The first kernel region: xw = x·w and id = x·tw + tb, twenty blocks of 5000 rows.

  At a grid point t the body reads block t of the [100000, 128] array x (rows 5000 t … 5000 t + 4999), the whole
  [128, 16] weights w and tw and the whole one-row array tb, and writes block t of each result.  A row of a product depends
  on that row of the left operand only, so what point t writes back is block t of 'lin x w' (of 'affine x tw tb') of the
  whole arrays; the twenty blocks tile the rows, so the two result arrays end as those.  Stated at any contents V the
  region is entered from.
-/
import proofs.«102944_j45518063403398_1_alg».proof.Proof.Gen.KernelIdeal.Frame
import proofs.«102944_j45518063403398_1_alg».proof.Proof.LibDenseRows

set_option maxRecDepth 16384

noncomputable section

namespace Cert.KernelIdeal.Out

open Cert.KernelIdeal Cert.KernelIdeal.Gen Cert.Gcn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

/-- The first payload is the product of its two loaded blocks (narrowing to bf16 is the identity on the extended reals). -/
theorem pay0_lin (v0 : Vec Ideal S5000x128 .f32) (v2 : Vec Ideal S128x16 .f32) :
    k0_pay2 (F := Ideal) v0 v2 = lin v0 v2 := by
  unfold k0_pay2 k0_pay1
  exact matmul_eq_lin (A := 5000) (K := 128) (C := 16) (truncf .bf16 v0 bitsLt_bf16_f32) (truncf .bf16 v2 bitsLt_bf16_f32)

/-- The second payload is the product plus the one-row block repeated down the rows. -/
theorem pay0_affine (v0 : Vec Ideal S5000x128 .f32) (v4 : Vec Ideal S128x16 .f32) (v9 : Vec Ideal S1x16 .f32) :
    k0_pay3 (F := Ideal) v0 v4 v9 = affine v0 v4 v9 := by
  unfold k0_pay3 k0_pay1
  exact addRow_eq_affine (A := 5000) (K := 128) (C := 16) _ v0 v4
    (matmul_eq_lin (A := 5000) (K := 128) (C := 16) (truncf .bf16 v0 bitsLt_bf16_f32) (truncf .bf16 v4 bitsLt_bf16_f32)) v9 _ _

/-- The index maps over the grid: x and the two results sit at block row t, block column 0; the weights and the one-row
    array stay at their one block. -/
theorem idx0 : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

/-- WHAT POINT t WRITES BACK to the first result is block t of 'lin x w' of the arrays as the region finds them. -/
theorem flushed0_4 (c : Dev nD) (t : Fin cfg0.N) :
    (dat0 V c).flushed 4 t = ((cfg0.win 4).blk t).view.read (Elt Ideal) (lin (V c main_arg0) (V c main_arg2)) := by
  show (cfg0.win 4).cut (grid0.coords t) ((dat0 V c).after 4 t) = _
  rw [after0_4]
  unfold out0_4
  rw [View.canon_unit_zero hz0]
  simp only [View.ld_unit_zero (S := S5000x128) hz0, View.ld_unit_zero (S := S128x16) hz0]
  rw [pay0_lin]
  have hidx := idx0 t
  funext j
  obtain ⟨p, q, rfl⟩ : ∃ (p : Fin 5000) (q : Fin 16), j = ix2 p q := ⟨j 0, j 1, eq_ix2 j⟩
  have hp : p.val < 5000 := p.isLt
  have hq : q.val < 16 := q.isLt
  have ht : t.val < 20 := t.isLt
  let ρ : Fin 5000 → Fin 100000 := fun p' => ⟨5000 * t.val + p'.val, by have := p'.isLt; omega⟩
  have h3 : ((cfg0.win 4).blk t).view.emb (ix2 p q) = ix2 (ρ p) q := by
    funext a; apply Fin.ext
    match a with
    | ⟨0, _⟩ => show win0_4.index t (0 : Fin 2) * 5000 + 1 * p.val = 5000 * t.val + p.val; omega
    | ⟨1, _⟩ => show win0_4.index t (1 : Fin 2) * 16 + 1 * q.val = q.val; omega
  show lin (iblk0 V c 0 t) (iblk0 V c 1 t) (ix2 p q)
    = lin (V c main_arg0) (V c main_arg2) (((cfg0.win 4).blk t).view.emb (ix2 p q))
  rw [h3]
  refine lin_rows (V c main_arg0) (V c main_arg2) (iblk0 V c 0 t) (iblk0 V c 1 t) ρ ?_ ?_ p q
  · intro p' k'
    have hk : k'.val < 128 := k'.isLt
    show V c main_arg0 (((cfg0.win 0).blk t).view.emb (ix2 p' k')) = V c main_arg0 (ix2 (ρ p') k')
    refine congrArg (V c main_arg0) (funext fun a => Fin.ext ?_)
    match a with
    | ⟨0, _⟩ => show win0_0.index t (0 : Fin 2) * 5000 + 1 * p'.val = 5000 * t.val + p'.val; omega
    | ⟨1, _⟩ => show win0_0.index t (1 : Fin 2) * 128 + 1 * k'.val = k'.val; omega
  · intro k' q'
    show V c main_arg2 (((cfg0.win 1).blk t).view.emb (ix2 k' q')) = V c main_arg2 (ix2 k' q')
    refine congrArg (V c main_arg2) (funext fun a => Fin.ext ?_)
    match a with
    | ⟨0, _⟩ => show win0_1.index t (0 : Fin 2) * 128 + 1 * k'.val = k'.val; omega
    | ⟨1, _⟩ => show win0_1.index t (1 : Fin 2) * 16 + 1 * q'.val = q'.val; omega

/-- WHAT POINT t WRITES BACK to the second result is block t of 'affine x tw tb'. -/
theorem flushed0_5 (c : Dev nD) (t : Fin cfg0.N) :
    (dat0 V c).flushed 5 t = ((cfg0.win 5).blk t).view.read (Elt Ideal)
        (affine (V c main_arg0) (V c main_arg6) (V c main_v31)) := by
  show (cfg0.win 5).cut (grid0.coords t) ((dat0 V c).after 5 t) = _
  rw [after0_5]
  unfold out0_5
  rw [View.canon_unit_zero hz0]
  simp only [View.ld_unit_zero (S := S5000x128) hz0, View.ld_unit_zero (S := S128x16) hz0, View.ld_unit_zero (S := S1x16) hz0]
  rw [pay0_affine]
  have hidx := idx0 t
  funext j
  obtain ⟨p, q, rfl⟩ : ∃ (p : Fin 5000) (q : Fin 16), j = ix2 p q := ⟨j 0, j 1, eq_ix2 j⟩
  have hp : p.val < 5000 := p.isLt
  have hq : q.val < 16 := q.isLt
  have ht : t.val < 20 := t.isLt
  let ρ : Fin 5000 → Fin 100000 := fun p' => ⟨5000 * t.val + p'.val, by have := p'.isLt; omega⟩
  have h3 : ((cfg0.win 5).blk t).view.emb (ix2 p q) = ix2 (ρ p) q := by
    funext a; apply Fin.ext
    match a with
    | ⟨0, _⟩ => show win0_5.index t (0 : Fin 2) * 5000 + 1 * p.val = 5000 * t.val + p.val; omega
    | ⟨1, _⟩ => show win0_5.index t (1 : Fin 2) * 16 + 1 * q.val = q.val; omega
  show affine (iblk0 V c 0 t) (iblk0 V c 2 t) (iblk0 V c 3 t) (ix2 p q)
    = affine (V c main_arg0) (V c main_arg6) (V c main_v31) (((cfg0.win 5).blk t).view.emb (ix2 p q))
  rw [h3]
  refine affine_rows (V c main_arg0) (V c main_arg6) (V c main_v31) (iblk0 V c 0 t) (iblk0 V c 2 t) (iblk0 V c 3 t) ρ ?_ ?_ ?_ p q
  · intro p' k'
    have hk : k'.val < 128 := k'.isLt
    show V c main_arg0 (((cfg0.win 0).blk t).view.emb (ix2 p' k')) = V c main_arg0 (ix2 (ρ p') k')
    refine congrArg (V c main_arg0) (funext fun a => Fin.ext ?_)
    match a with
    | ⟨0, _⟩ => show win0_0.index t (0 : Fin 2) * 5000 + 1 * p'.val = 5000 * t.val + p'.val; omega
    | ⟨1, _⟩ => show win0_0.index t (1 : Fin 2) * 128 + 1 * k'.val = k'.val; omega
  · intro k' q'
    show V c main_arg6 (((cfg0.win 2).blk t).view.emb (ix2 k' q')) = V c main_arg6 (ix2 k' q')
    refine congrArg (V c main_arg6) (funext fun a => Fin.ext ?_)
    match a with
    | ⟨0, _⟩ => show win0_2.index t (0 : Fin 2) * 128 + 1 * k'.val = k'.val; omega
    | ⟨1, _⟩ => show win0_2.index t (1 : Fin 2) * 16 + 1 * q'.val = q'.val; omega
  · intro q'
    show V c main_v31 (((cfg0.win 3).blk t).view.emb (ix2 (0 : Fin 1) q')) = V c main_v31 (ix2 (0 : Fin 1) q')
    refine congrArg (V c main_v31) (funext fun a => Fin.ext ?_)
    match a with
    | ⟨0, _⟩ => show win0_3.index t (0 : Fin 2) * 1 + 1 * 0 = 0; omega
    | ⟨1, _⟩ => show win0_3.index t (1 : Fin 2) * 16 + 1 * q'.val = q'.val; omega

/-- An index of the array is in point t's block iff each coordinate is in the block's range on its axis. -/
theorem mem_blk0_4 (t : Fin cfg0.N) (i : S100000x16.Idx) :
    i ∈ ((cfg0.win 4).blk t).view.set ↔ ∀ a : Fin 2, win0_4.index t a * S5000x16.size a ≤ (i a).val
      ∧ (i a).val < win0_4.index t a * S5000x16.size a + S5000x16.size a := by
  show i ∈ ((View.whole main_v34_0).slice (win0_4.rect t)).set ↔ _
  rw [View.set_slice_whole, Rect.mem_set_unit]
  exact Iff.rfl

/-- Every index of the array is in the block of the point its row falls in: row r in block r / 5000. -/
theorem cover0_4 (i : S100000x16.Idx) :
    ∃ t : Fin cfg0.N, (cfg0.win 4).flush t = true ∧ i ∈ ((cfg0.win 4).blk t).view.set := by
  have hi0 : (i 0).val < 100000 := (i 0).isLt
  have hi1 : (i 1).val < 16 := (i 1).isLt
  let t : Fin cfg0.N := ⟨(i 0).val / 5000, by show (i 0).val / 5000 < 20; omega⟩
  have hidx := idx0 t
  have htv : t.val = (i 0).val / 5000 := rfl
  refine ⟨t, flush0_4 t, ?_⟩
  rw [mem_blk0_4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 16 ≤ (i 1).val ∧ (i 1).val < win0_4.index t (1 : Fin 2) * 16 + 16; omega

/-- An index of the array is in point t's block iff each coordinate is in the block's range on its axis. -/
theorem mem_blk0_5 (t : Fin cfg0.N) (i : S100000x16.Idx) :
    i ∈ ((cfg0.win 5).blk t).view.set ↔ ∀ a : Fin 2, win0_5.index t a * S5000x16.size a ≤ (i a).val
      ∧ (i a).val < win0_5.index t a * S5000x16.size a + S5000x16.size a := by
  show i ∈ ((View.whole main_v34_1).slice (win0_5.rect t)).set ↔ _
  rw [View.set_slice_whole, Rect.mem_set_unit]
  exact Iff.rfl

/-- Every index of the array is in the block of the point its row falls in: row r in block r / 5000. -/
theorem cover0_5 (i : S100000x16.Idx) :
    ∃ t : Fin cfg0.N, (cfg0.win 5).flush t = true ∧ i ∈ ((cfg0.win 5).blk t).view.set := by
  have hi0 : (i 0).val < 100000 := (i 0).isLt
  have hi1 : (i 1).val < 16 := (i 1).isLt
  let t : Fin cfg0.N := ⟨(i 0).val / 5000, by show (i 0).val / 5000 < 20; omega⟩
  have hidx := idx0 t
  have htv : t.val = (i 0).val / 5000 := rfl
  refine ⟨t, flush0_5 t, ?_⟩
  rw [mem_blk0_5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 16 ≤ (i 1).val ∧ (i 1).val < win0_5.index t (1 : Fin 2) * 16 + 16; omega

/-- THE FIRST RESULT ARRAY after the region: x·w. -/
theorem final0_4 (c : Dev nD) : (dat0 V c).arrAt 4 cfg0.N = lin (V c main_arg0) (V c main_arg2) :=
  (dat0 V c).arrAt_eq_of_cover 4 _ (fun t _ => flushed0_4 V c t) cover0_4

/-- THE SECOND RESULT ARRAY after the region: x·tw + tb. -/
theorem final0_5 (c : Dev nD) : (dat0 V c).arrAt 5 cfg0.N = affine (V c main_arg0) (V c main_arg6) (V c main_v31) :=
  (dat0 V c).arrAt_eq_of_cover 5 _ (fun t _ => flushed0_5 V c t) cover0_5

end Cert.KernelIdeal.Out

end
-- ==== Proof.Region1.lean ====
/-
  The second kernel region: with h = relu (agg + b) + d, hw = h·w and id = h·tw + tb, twenty blocks of 5000 rows.

  At a grid point t the body reads block t of the [100000, 16] arrays agg and d (rows 5000 t … 5000 t + 4999), the whole
  one-row arrays b and tb and the whole [16, 64] weights w and tw, forms block t of h and writes block t of each result.
  Row r of h depends on row r of agg and d only, and row r of a product on row r of its left operand only, so what point t
  writes back is block t of 'lin (rect agg b d) w' (of 'affine (rect agg b d) tw tb') of the whole arrays; the twenty
  blocks tile the rows.  Stated at any contents V the region is entered from.
-/
import proofs.«102944_j45518063403398_1_alg».proof.Proof.Gen.KernelIdeal.Frame
import proofs.«102944_j45518063403398_1_alg».proof.Proof.LibDenseRows

set_option maxRecDepth 16384

noncomputable section

namespace Cert.KernelIdeal.Out

open Cert.KernelIdeal Cert.KernelIdeal.Gen Cert.Gcn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

/-- The hidden block: relu (agg + b) + d of the loaded blocks (narrowing to bf16 is the identity on the extended reals). -/
theorem pay1_hidden (v0 : Vec Ideal S5000x16 .f32) (v2 : Vec Ideal S1x16 .f32) (v8 : Vec Ideal S5000x16 .f32) :
    (k1_pay1 (F := Ideal) v0 v2 v8 : Mat 5000 16) = rect v0 v2 v8 := by
  unfold k1_pay1
  exact body_eq_rect (A := 5000) (C := 16) v0 v8 v2 _ _ _

/-- The first payload: the hidden block times the loaded weights. -/
theorem pay1_lin (v0 : Vec Ideal S5000x16 .f32) (v2 : Vec Ideal S1x16 .f32) (v8 : Vec Ideal S5000x16 .f32) (v12 : Vec Ideal S16x64 .f32) :
    k1_pay2 (F := Ideal) v0 v2 v8 v12 = lin (rect v0 v2 v8) v12 := by
  unfold k1_pay2
  refine (matmul_eq_lin (A := 5000) (K := 16) (C := 64) (k1_pay1 (F := Ideal) v0 v2 v8) (truncf .bf16 v12 bitsLt_bf16_f32)).trans ?_
  exact congrArg (fun h : Mat 5000 16 => lin h v12) (pay1_hidden v0 v2 v8)

/-- The second payload: the hidden block times the loaded weights plus the one-row block repeated down the rows. -/
theorem pay1_affine (v0 : Vec Ideal S5000x16 .f32) (v2 : Vec Ideal S1x16 .f32) (v8 : Vec Ideal S5000x16 .f32) (v14 : Vec Ideal S16x64 .f32)
    (v19 : Vec Ideal S1x64 .f32) :
    k1_pay3 (F := Ideal) v0 v2 v8 v14 v19 = affine (rect v0 v2 v8) v14 v19 := by
  unfold k1_pay3
  refine addRow_eq_affine (A := 5000) (K := 16) (C := 64) _ (rect v0 v2 v8) v14 ?_ v19 _ _
  refine (matmul_eq_lin (A := 5000) (K := 16) (C := 64) (k1_pay1 (F := Ideal) v0 v2 v8) (truncf .bf16 v14 bitsLt_bf16_f32)).trans ?_
  exact congrArg (fun h : Mat 5000 16 => lin h v14) (pay1_hidden v0 v2 v8)

/-- The index maps over the grid: agg, d and the two results sit at block row t, block column 0; the weights and the one-row
    arrays stay at their one block. -/
theorem idx1 : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0)
    ∧ (win1_7.index t (0 : Fin 2) = t.val ∧ win1_7.index t (1 : Fin 2) = 0) :=
  (by decide +kernel : ∀ t : Fin grid1.N, _)

/-- WHAT POINT t WRITES BACK to the first result is block t of 'lin (rect agg b d) w' of the arrays as the region finds them. -/
theorem flushed1_6 (c : Dev nD) (t : Fin cfg1.N) :
    (dat1 V c).flushed 6 t = ((cfg1.win 6).blk t).view.read (Elt Ideal)
        (lin (rect (V c main_v47) (V c main_v30) (V c main_v34_1)) (V c main_arg4)) := by
  show (cfg1.win 6).cut (grid1.coords t) ((dat1 V c).after 6 t) = _
  rw [after1_6]
  unfold out1_6
  rw [View.canon_unit_zero hz1]
  simp only [View.ld_unit_zero (S := S5000x16) hz1, View.ld_unit_zero (S := S1x16) hz1, View.ld_unit_zero (S := S16x64) hz1]
  rw [pay1_lin]
  have hidx := idx1 t
  funext j
  obtain ⟨p, q, rfl⟩ : ∃ (p : Fin 5000) (q : Fin 64), j = ix2 p q := ⟨j 0, j 1, eq_ix2 j⟩
  have hp : p.val < 5000 := p.isLt
  have hq : q.val < 64 := q.isLt
  have ht : t.val < 20 := t.isLt
  let ρ : Fin 5000 → Fin 100000 := fun p' => ⟨5000 * t.val + p'.val, by have := p'.isLt; omega⟩
  have h3 : ((cfg1.win 6).blk t).view.emb (ix2 p q) = ix2 (ρ p) q := by
    funext a; apply Fin.ext
    match a with
    | ⟨0, _⟩ => show win1_6.index t (0 : Fin 2) * 5000 + 1 * p.val = 5000 * t.val + p.val; omega
    | ⟨1, _⟩ => show win1_6.index t (1 : Fin 2) * 64 + 1 * q.val = q.val; omega
  have hh : ∀ (p' : Fin 5000) (k' : Fin 16), rect (iblk1 V c 0 t) (iblk1 V c 1 t) (iblk1 V c 2 t) (ix2 p' k')
      = rect (V c main_v47) (V c main_v30) (V c main_v34_1) (ix2 (ρ p') k') := by
    intro p' k'
    have hk : k'.val < 16 := k'.isLt
    refine rect_rows (V c main_v47) (V c main_v30) (V c main_v34_1) (iblk1 V c 0 t) (iblk1 V c 1 t) (iblk1 V c 2 t) ρ ?_ ?_ ?_ p' k'
    · intro p'' q''
      have hq'' : q''.val < 16 := q''.isLt
      show V c main_v47 (((cfg1.win 0).blk t).view.emb (ix2 p'' q'')) = V c main_v47 (ix2 (ρ p'') q'')
      refine congrArg (V c main_v47) (funext fun a => Fin.ext ?_)
      match a with
      | ⟨0, _⟩ => show win1_0.index t (0 : Fin 2) * 5000 + 1 * p''.val = 5000 * t.val + p''.val; omega
      | ⟨1, _⟩ => show win1_0.index t (1 : Fin 2) * 16 + 1 * q''.val = q''.val; omega
    · intro q''
      show V c main_v30 (((cfg1.win 1).blk t).view.emb (ix2 (0 : Fin 1) q'')) = V c main_v30 (ix2 (0 : Fin 1) q'')
      refine congrArg (V c main_v30) (funext fun a => Fin.ext ?_)
      match a with
      | ⟨0, _⟩ => show win1_1.index t (0 : Fin 2) * 1 + 1 * 0 = 0; omega
      | ⟨1, _⟩ => show win1_1.index t (1 : Fin 2) * 16 + 1 * q''.val = q''.val; omega
    · intro p'' q''
      have hq'' : q''.val < 16 := q''.isLt
      show V c main_v34_1 (((cfg1.win 2).blk t).view.emb (ix2 p'' q'')) = V c main_v34_1 (ix2 (ρ p'') q'')
      refine congrArg (V c main_v34_1) (funext fun a => Fin.ext ?_)
      match a with
      | ⟨0, _⟩ => show win1_2.index t (0 : Fin 2) * 5000 + 1 * p''.val = 5000 * t.val + p''.val; omega
      | ⟨1, _⟩ => show win1_2.index t (1 : Fin 2) * 16 + 1 * q''.val = q''.val; omega
  show lin (rect (iblk1 V c 0 t) (iblk1 V c 1 t) (iblk1 V c 2 t)) (iblk1 V c 3 t) (ix2 p q)
    = lin (rect (V c main_v47) (V c main_v30) (V c main_v34_1)) (V c main_arg4) (((cfg1.win 6).blk t).view.emb (ix2 p q))
  rw [h3]
  refine lin_rows (rect (V c main_v47) (V c main_v30) (V c main_v34_1)) (V c main_arg4)
    (rect (iblk1 V c 0 t) (iblk1 V c 1 t) (iblk1 V c 2 t)) (iblk1 V c 3 t) ρ hh ?_ p q
  · intro k' q'
    have hq' : q'.val < 64 := q'.isLt
    show V c main_arg4 (((cfg1.win 3).blk t).view.emb (ix2 k' q')) = V c main_arg4 (ix2 k' q')
    refine congrArg (V c main_arg4) (funext fun a => Fin.ext ?_)
    match a with
    | ⟨0, _⟩ => show win1_3.index t (0 : Fin 2) * 16 + 1 * k'.val = k'.val; omega
    | ⟨1, _⟩ => show win1_3.index t (1 : Fin 2) * 64 + 1 * q'.val = q'.val; omega

/-- WHAT POINT t WRITES BACK to the second result is block t of 'affine (rect agg b d) tw tb'. -/
theorem flushed1_7 (c : Dev nD) (t : Fin cfg1.N) :
    (dat1 V c).flushed 7 t = ((cfg1.win 7).blk t).view.read (Elt Ideal)
        (affine (rect (V c main_v47) (V c main_v30) (V c main_v34_1)) (V c main_arg8) (V c main_v33)) := by
  show (cfg1.win 7).cut (grid1.coords t) ((dat1 V c).after 7 t) = _
  rw [after1_7]
  unfold out1_7
  rw [View.canon_unit_zero hz1]
  simp only [View.ld_unit_zero (S := S5000x16) hz1, View.ld_unit_zero (S := S1x16) hz1, View.ld_unit_zero (S := S16x64) hz1,
    View.ld_unit_zero (S := S1x64) hz1]
  rw [pay1_affine]
  have hidx := idx1 t
  funext j
  obtain ⟨p, q, rfl⟩ : ∃ (p : Fin 5000) (q : Fin 64), j = ix2 p q := ⟨j 0, j 1, eq_ix2 j⟩
  have hp : p.val < 5000 := p.isLt
  have hq : q.val < 64 := q.isLt
  have ht : t.val < 20 := t.isLt
  let ρ : Fin 5000 → Fin 100000 := fun p' => ⟨5000 * t.val + p'.val, by have := p'.isLt; omega⟩
  have h3 : ((cfg1.win 7).blk t).view.emb (ix2 p q) = ix2 (ρ p) q := by
    funext a; apply Fin.ext
    match a with
    | ⟨0, _⟩ => show win1_7.index t (0 : Fin 2) * 5000 + 1 * p.val = 5000 * t.val + p.val; omega
    | ⟨1, _⟩ => show win1_7.index t (1 : Fin 2) * 64 + 1 * q.val = q.val; omega
  have hh : ∀ (p' : Fin 5000) (k' : Fin 16), rect (iblk1 V c 0 t) (iblk1 V c 1 t) (iblk1 V c 2 t) (ix2 p' k')
      = rect (V c main_v47) (V c main_v30) (V c main_v34_1) (ix2 (ρ p') k') := by
    intro p' k'
    have hk : k'.val < 16 := k'.isLt
    refine rect_rows (V c main_v47) (V c main_v30) (V c main_v34_1) (iblk1 V c 0 t) (iblk1 V c 1 t) (iblk1 V c 2 t) ρ ?_ ?_ ?_ p' k'
    · intro p'' q''
      have hq'' : q''.val < 16 := q''.isLt
      show V c main_v47 (((cfg1.win 0).blk t).view.emb (ix2 p'' q'')) = V c main_v47 (ix2 (ρ p'') q'')
      refine congrArg (V c main_v47) (funext fun a => Fin.ext ?_)
      match a with
      | ⟨0, _⟩ => show win1_0.index t (0 : Fin 2) * 5000 + 1 * p''.val = 5000 * t.val + p''.val; omega
      | ⟨1, _⟩ => show win1_0.index t (1 : Fin 2) * 16 + 1 * q''.val = q''.val; omega
    · intro q''
      show V c main_v30 (((cfg1.win 1).blk t).view.emb (ix2 (0 : Fin 1) q'')) = V c main_v30 (ix2 (0 : Fin 1) q'')
      refine congrArg (V c main_v30) (funext fun a => Fin.ext ?_)
      match a with
      | ⟨0, _⟩ => show win1_1.index t (0 : Fin 2) * 1 + 1 * 0 = 0; omega
      | ⟨1, _⟩ => show win1_1.index t (1 : Fin 2) * 16 + 1 * q''.val = q''.val; omega
    · intro p'' q''
      have hq'' : q''.val < 16 := q''.isLt
      show V c main_v34_1 (((cfg1.win 2).blk t).view.emb (ix2 p'' q'')) = V c main_v34_1 (ix2 (ρ p'') q'')
      refine congrArg (V c main_v34_1) (funext fun a => Fin.ext ?_)
      match a with
      | ⟨0, _⟩ => show win1_2.index t (0 : Fin 2) * 5000 + 1 * p''.val = 5000 * t.val + p''.val; omega
      | ⟨1, _⟩ => show win1_2.index t (1 : Fin 2) * 16 + 1 * q''.val = q''.val; omega
  show affine (rect (iblk1 V c 0 t) (iblk1 V c 1 t) (iblk1 V c 2 t)) (iblk1 V c 4 t) (iblk1 V c 5 t) (ix2 p q)
    = affine (rect (V c main_v47) (V c main_v30) (V c main_v34_1)) (V c main_arg8) (V c main_v33) (((cfg1.win 7).blk t).view.emb (ix2 p q))
  rw [h3]
  refine affine_rows (rect (V c main_v47) (V c main_v30) (V c main_v34_1)) (V c main_arg8) (V c main_v33)
    (rect (iblk1 V c 0 t) (iblk1 V c 1 t) (iblk1 V c 2 t)) (iblk1 V c 4 t) (iblk1 V c 5 t) ρ hh ?_ ?_ p q
  · intro k' q'
    have hq' : q'.val < 64 := q'.isLt
    show V c main_arg8 (((cfg1.win 4).blk t).view.emb (ix2 k' q')) = V c main_arg8 (ix2 k' q')
    refine congrArg (V c main_arg8) (funext fun a => Fin.ext ?_)
    match a with
    | ⟨0, _⟩ => show win1_4.index t (0 : Fin 2) * 16 + 1 * k'.val = k'.val; omega
    | ⟨1, _⟩ => show win1_4.index t (1 : Fin 2) * 64 + 1 * q'.val = q'.val; omega
  · intro q'
    have hq' : q'.val < 64 := q'.isLt
    show V c main_v33 (((cfg1.win 5).blk t).view.emb (ix2 (0 : Fin 1) q')) = V c main_v33 (ix2 (0 : Fin 1) q')
    refine congrArg (V c main_v33) (funext fun a => Fin.ext ?_)
    match a with
    | ⟨0, _⟩ => show win1_5.index t (0 : Fin 2) * 1 + 1 * 0 = 0; omega
    | ⟨1, _⟩ => show win1_5.index t (1 : Fin 2) * 64 + 1 * q'.val = q'.val; omega

/-- An index of the array is in point t's block iff each coordinate is in the block's range on its axis. -/
theorem mem_blk1_6 (t : Fin cfg1.N) (i : S100000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v48_0).slice (win1_6.rect t)).set ↔ _
  rw [View.set_slice_whole, Rect.mem_set_unit]
  exact Iff.rfl

/-- Every index of the array is in the block of the point its row falls in: row r in block r / 5000. -/
theorem cover1_6 (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  let t : Fin cfg1.N := ⟨(i 0).val / 5000, by show (i 0).val / 5000 < 20; omega⟩
  have hidx := idx1 t
  have htv : t.val = (i 0).val / 5000 := rfl
  refine ⟨t, flush1_6 t, ?_⟩
  rw [mem_blk1_6]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- An index of the array is in point t's block iff each coordinate is in the block's range on its axis. -/
theorem mem_blk1_7 (t : Fin cfg1.N) (i : S100000x64.Idx) :
    i ∈ ((cfg1.win 7).blk t).view.set ↔ ∀ a : Fin 2, win1_7.index t a * S5000x64.size a ≤ (i a).val
      ∧ (i a).val < win1_7.index t a * S5000x64.size a + S5000x64.size a := by
  show i ∈ ((View.whole main_v48_1).slice (win1_7.rect t)).set ↔ _
  rw [View.set_slice_whole, Rect.mem_set_unit]
  exact Iff.rfl

/-- Every index of the array is in the block of the point its row falls in: row r in block r / 5000. -/
theorem cover1_7 (i : S100000x64.Idx) :
    ∃ t : Fin cfg1.N, (cfg1.win 7).flush t = true ∧ i ∈ ((cfg1.win 7).blk t).view.set := by
  have hi0 : (i 0).val < 100000 := (i 0).isLt
  have hi1 : (i 1).val < 64 := (i 1).isLt
  let t : Fin cfg1.N := ⟨(i 0).val / 5000, by show (i 0).val / 5000 < 20; omega⟩
  have hidx := idx1 t
  have htv : t.val = (i 0).val / 5000 := rfl
  refine ⟨t, flush1_7 t, ?_⟩
  rw [mem_blk1_7]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 64 ≤ (i 1).val ∧ (i 1).val < win1_7.index t (1 : Fin 2) * 64 + 64; omega

/-- THE FIRST RESULT ARRAY after the region: h·w. -/
theorem final1_6 (c : Dev nD) :
    (dat1 V c).arrAt 6 cfg1.N = lin (rect (V c main_v47) (V c main_v30) (V c main_v34_1)) (V c main_arg4) :=
  (dat1 V c).arrAt_eq_of_cover 6 _ (fun t _ => flushed1_6 V c t) cover1_6

/-- THE SECOND RESULT ARRAY after the region: h·tw + tb. -/
theorem final1_7 (c : Dev nD) :
    (dat1 V c).arrAt 7 cfg1.N = affine (rect (V c main_v47) (V c main_v30) (V c main_v34_1)) (V c main_arg8) (V c main_v33) :=
  (dat1 V c).arrAt_eq_of_cover 7 _ (fun t _ => flushed1_7 V c t) cover1_7

end Cert.KernelIdeal.Out

end
-- ==== Proof.Region2.lean ====
/-
  The third kernel region: out = relu (agg + b) + d, twenty blocks of 5000 rows.

  At a grid point t the body reads block t of the [100000, 64] arrays agg and d (rows 5000 t … 5000 t + 4999) and the
  whole one-row array b, and writes block t of the result.  'rect' depends on a row's own entries only, so what point t
  writes back is block t of 'rect agg b d' of the whole arrays; the twenty blocks tile the rows, so the result array
  ends as 'rect agg b d'.  Stated at any contents V the region is entered from.
-/
import proofs.«102944_j45518063403398_1_alg».proof.Proof.Gen.KernelIdeal.Frame
import proofs.«102944_j45518063403398_1_alg».proof.Proof.LibDenseRows

set_option maxRecDepth 16384

noncomputable section

namespace Cert.KernelIdeal.Out

open Cert.KernelIdeal Cert.KernelIdeal.Gen Cert.Gcn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The body's one payload is 'rect' of its three loaded blocks. -/
theorem pay2_rect (v0 : Vec Ideal S5000x64 .f32) (v2 : Vec Ideal S1x64 .f32) (v8 : Vec Ideal S5000x64 .f32) :
    k2_pay1 (F := Ideal) v0 v2 v8 = rect v0 v2 v8 := by
  unfold k2_pay1
  exact body_eq_rect (A := 5000) (C := 64) v0 v8 v2 _ _ _

/-- The index maps over the grid: the two row-blocked inputs move with the output (block row t, block column 0); the
    one-row input stays at its one block. -/
theorem idx2 : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = win2_3.index t (0 : Fin 2) ∧ win2_2.index t (1 : Fin 2) = 0
    ∧ win2_3.index t (0 : Fin 2) = t.val ∧ win2_3.index t (1 : Fin 2) = 0 :=
  (by decide +kernel : ∀ t : Fin grid2.N, _)

/-- WHAT POINT t WRITES BACK is block t of 'rect' of the three arrays as the region finds them. -/
theorem flushed2_3 (c : Dev nD) (t : Fin cfg2.N) :
    (dat2 V c).flushed 3 t = ((cfg2.win 3).blk t).view.read (Elt Ideal)
        (rect (V c main_v61) (V c main_v32) (V c main_v48_1)) := by
  show (cfg2.win 3).cut (grid2.coords t) ((dat2 V c).after 3 t) = _
  rw [after2_3]
  unfold out2_3
  rw [View.canon_unit_zero hz2]
  simp only [View.ld_unit_zero (S := S5000x64) hz2, View.ld_unit_zero (S := S1x64) hz2]
  rw [pay2_rect]
  obtain ⟨e0, e1, e2, e3, e4, e5, e6, e7⟩ := idx2 t
  funext j
  obtain ⟨p, q, rfl⟩ : ∃ (p : Fin 5000) (q : Fin 64), j = ix2 p q := ⟨j 0, j 1, eq_ix2 j⟩
  have hp : p.val < 5000 := p.isLt
  have hq : q.val < 64 := q.isLt
  have ht : t.val < 20 := t.isLt
  let ρ : Fin 5000 → Fin 100000 := fun p' => ⟨5000 * t.val + p'.val, by have := p'.isLt; omega⟩
  have h3 : ((cfg2.win 3).blk t).view.emb (ix2 p q) = ix2 (ρ p) q := by
    funext a; apply Fin.ext
    match a with
    | ⟨0, _⟩ => show win2_3.index t (0 : Fin 2) * 5000 + 1 * p.val = 5000 * t.val + p.val; omega
    | ⟨1, _⟩ => show win2_3.index t (1 : Fin 2) * 64 + 1 * q.val = q.val; omega
  show rect (iblk2 V c 0 t) (iblk2 V c 1 t) (iblk2 V c 2 t) (ix2 p q)
    = rect (V c main_v61) (V c main_v32) (V c main_v48_1) (((cfg2.win 3).blk t).view.emb (ix2 p q))
  rw [h3]
  refine rect_rows (V c main_v61) (V c main_v32) (V c main_v48_1) (iblk2 V c 0 t) (iblk2 V c 1 t) (iblk2 V c 2 t) ρ ?_ ?_ ?_ p q
  · intro p' q'
    show V c main_v61 (((cfg2.win 0).blk t).view.emb (ix2 p' q')) = V c main_v61 (ix2 (ρ p') q')
    refine congrArg (V c main_v61) (funext fun a => Fin.ext ?_)
    match a with
    | ⟨0, _⟩ => show win2_0.index t (0 : Fin 2) * 5000 + 1 * p'.val = 5000 * t.val + p'.val; omega
    | ⟨1, _⟩ => show win2_0.index t (1 : Fin 2) * 64 + 1 * q'.val = q'.val; omega
  · intro q'
    show V c main_v32 (((cfg2.win 1).blk t).view.emb (ix2 (0 : Fin 1) q')) = V c main_v32 (ix2 (0 : Fin 1) q')
    refine congrArg (V c main_v32) (funext fun a => Fin.ext ?_)
    match a with
    | ⟨0, _⟩ => show win2_1.index t (0 : Fin 2) * 1 + 1 * 0 = 0; omega
    | ⟨1, _⟩ => show win2_1.index t (1 : Fin 2) * 64 + 1 * q'.val = q'.val; omega
  · intro p' q'
    show V c main_v48_1 (((cfg2.win 2).blk t).view.emb (ix2 p' q')) = V c main_v48_1 (ix2 (ρ p') q')
    refine congrArg (V c main_v48_1) (funext fun a => Fin.ext ?_)
    match a with
    | ⟨0, _⟩ => show win2_2.index t (0 : Fin 2) * 5000 + 1 * p'.val = 5000 * t.val + p'.val; omega
    | ⟨1, _⟩ => show win2_2.index t (1 : Fin 2) * 64 + 1 * q'.val = q'.val; omega

/-- An index of the result array is in point t's block iff each coordinate is in the block's range on its axis. -/
theorem mem_blk2_3 (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v62).slice (win2_3.rect t)).set ↔ _
  rw [View.set_slice_whole, Rect.mem_set_unit]
  exact Iff.rfl

/-- Every index of the result array is in the block of the point its row falls in: row r in block r / 5000. -/
theorem cover2_3 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  let t : Fin cfg2.N := ⟨(i 0).val / 5000, by show (i 0).val / 5000 < 20; omega⟩
  obtain ⟨e0, e1, e2, e3, e4, e5, e6, e7⟩ := idx2 t
  have htv : t.val = (i 0).val / 5000 := rfl
  refine ⟨t, flush2_3 t, ?_⟩
  rw [mem_blk2_3]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- THE RESULT ARRAY after the region: 'rect' of the three arrays it was entered with. -/
theorem final2_3 (c : Dev nD) :
    (dat2 V c).arrAt 3 cfg2.N = rect (V c main_v61) (V c main_v32) (V c main_v48_1) :=
  (dat2 V c).arrAt_eq_of_cover 3 _ (fun t _ => flushed2_3 V c t) cover2_3

end Cert.KernelIdeal.Out

end
-- ==== Proof.Chain.lean ====
/-
  The host operations around the kernel regions, as named functions (any float family).

  From the [2, 3200000] edge array e: 'ends0 e' and 'ends1 e' are the source and the target endpoint of every edge with the
  100000 self loops appended (3300000 entries); 'wrap' adds 100000 to a negative index; 'deg' counts, per node, the
  entries that target it (a scatter-add of ones); 'invs' is deg^(-1/2) where deg > 0 and 0 elsewhere; 'nrm' is the
  per-entry weight invs[source] * invs[target]; 'agg16' / 'agg64' gather the rows of a [100000, 16] / [100000, 64] array
  at the sources, scale each by its weight and scatter-add them at the targets; 'row' lays a vector out as one row.
  Each host stretch of @main, run from any buffer contents W, leaves these functions of W's buffers in the buffers it
  writes, and leaves every other buffer as it was.
-/
import proofs.«102944_j45518063403398_1_alg».proof.Proof.Gen.KernelIdeal.Launch
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable {F : FTy → Type} [FloatOps F]

/-- Endpoint 0 (the source) of every edge, then every node once: the self loops appended. -/
def ends0 (e : (⟨S2x3200000, .i32⟩ : BufTy).Contents (Elt F)) : (⟨S3300000, .i32⟩ : BufTy).Contents (Elt F) :=
  concatenate S3300000 0 [⟨S3200000, shapeCast S3200000 (extractStridedSlice S1x3200000 ![0, 0] e slices_S2x3200000_S1x3200000_0_0) shapeCasts_S1x3200000_S3200000⟩, ⟨S100000, iotaInDim S100000 32 0⟩] concatenates_S3200000_S100000_S3300000_d0

/-- Endpoint 1 (the target) of every edge, then every node once. -/
def ends1 (e : (⟨S2x3200000, .i32⟩ : BufTy).Contents (Elt F)) : (⟨S3300000, .i32⟩ : BufTy).Contents (Elt F) :=
  concatenate S3300000 0 [⟨S3200000, shapeCast S3200000 (extractStridedSlice S1x3200000 ![1, 0] e slices_S2x3200000_S1x3200000_1_0) shapeCasts_S1x3200000_S3200000⟩, ⟨S100000, iotaInDim S100000 32 0⟩] concatenates_S3200000_S100000_S3300000_d0

/-- A negative index counted from the end: i < 0 ? i + 100000 : i. -/
def wrap (v : (⟨S3300000, .i32⟩ : BufTy).Contents (Elt F)) : (⟨S3300000, .i32⟩ : BufTy).Contents (Elt F) :=
  select (cmpi .slt v (broadcastInDim S3300000 ![] bcast_S_S3300000 (constantI S_ 32 0#32)))
    (addi v (broadcastInDim S3300000 ![] bcast_S_S3300000 (constantI S_ 32 100000#32))) v

/-- The indices as a column of one-entry index vectors. -/
def col (v : (⟨S3300000, .i32⟩ : BufTy).Contents (Elt F)) : (⟨S3300000x1, .i32⟩ : BufTy).Contents (Elt F) :=
  broadcastInDim S3300000x1 ![0] bcast_S3300000_S3300000x1_0 v

/-- How many entries target each node. -/
def deg (d : (⟨S3300000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant S_ .f32 0x00000000#32)) (col (F := F) d)
    (broadcastInDim S3300000 ![] bcast_S_S3300000 (constant S_ .f32 0x3F800000#32))

/-- deg > 0, the mask. -/
def pos (d : (⟨S3300000, .i32⟩ : BufTy).Contents (Elt F)) : (⟨S100000, .i1⟩ : BufTy).Contents (Elt F) :=
  cmpf (F := F) .ogt (deg (F := F) d) (broadcastInDim S100000 ![] bcast_S_S100000 (constant S_ .f32 0x00000000#32))

/-- deg^(-1/2) where the mask holds, else the given fill spread over the nodes. -/
def invs (mask : (⟨S100000, .i1⟩ : BufTy).Contents (Elt F)) (rs : (⟨S100000, .f32⟩ : BufTy).Contents (Elt F))
    (fill : (⟨S_, .f32⟩ : BufTy).Contents (Elt F)) : (⟨S100000, .f32⟩ : BufTy).Contents (Elt F) :=
  select mask rs (broadcastInDim S100000 ![] bcast_S_S100000 (id fill))

/-- The per-entry weight: the node factor at the source times the node factor at the target. -/
def nrm (f : (⟨S100000, .f32⟩ : BufTy).Contents (Elt F)) (s d : (⟨S3300000, .i32⟩ : BufTy).Contents (Elt F)) :
    (⟨S3300000, .f32⟩ : BufTy).Contents (Elt F) :=
  mulf (Host.gather gather_S100000_S3300000x1_S3300000_n_0_n_n_0_1_1 f (col (F := F) (wrap (F := F) s)))
    (Host.gather gather_S100000_S3300000x1_S3300000_n_0_n_n_0_1_1 f (col (F := F) (wrap (F := F) d)))

/-- Rows gathered at the sources, scaled, scatter-added at the targets: width 16. -/
def agg16 (s d : (⟨S3300000, .i32⟩ : BufTy).Contents (Elt F)) (n : (⟨S3300000, .f32⟩ : BufTy).Contents (Elt F))
    (x : (⟨S100000x16, .f32⟩ : BufTy).Contents (Elt F)) : (⟨S100000x16, .f32⟩ : BufTy).Contents (Elt F) :=
  Host.scatterAdd scatter_S100000x16_S3300000x1_S3300000x16_1_0_0_1
    (broadcastInDim S100000x16 ![] bcast_S_S100000x16 (constant S_ .f32 0x00000000#32)) (col (F := F) d)
    (mulf (Host.gather gather_S100000x16_S3300000x1_S3300000x16_1_0_n_n_0_1_116 x (col (F := F) (wrap (F := F) s)))
      (broadcastInDim S3300000x16 ![0, 1] bcast_S3300000x1_S3300000x16_0_1 (broadcastInDim S3300000x1 ![0] bcast_S3300000_S3300000x1_0 n)))

/-- The same at width 64. -/
def agg64 (s d : (⟨S3300000, .i32⟩ : BufTy).Contents (Elt F)) (n : (⟨S3300000, .f32⟩ : BufTy).Contents (Elt F))
    (x : (⟨S100000x64, .f32⟩ : BufTy).Contents (Elt F)) : (⟨S100000x64, .f32⟩ : BufTy).Contents (Elt F) :=
  Host.scatterAdd scatter_S100000x64_S3300000x1_S3300000x64_1_0_0_1
    (broadcastInDim S100000x64 ![] bcast_S_S100000x64 (constant S_ .f32 0x00000000#32)) (col (F := F) d)
    (mulf (Host.gather gather_S100000x64_S3300000x1_S3300000x64_1_0_n_n_0_1_164 x (col (F := F) (wrap (F := F) s)))
      (broadcastInDim S3300000x64 ![0, 1] bcast_S3300000x1_S3300000x64_0_1 (broadcastInDim S3300000x1 ![0] bcast_S3300000_S3300000x1_0 n)))

/-- A 16-vector as one row. -/
def row16 (b : (⟨S16, .f32⟩ : BufTy).Contents (Elt F)) : (⟨S1x16, .f32⟩ : BufTy).Contents (Elt F) :=
  shapeCast S1x16 b shapeCasts_S16_S1x16
/-- A 64-vector as one row. -/
def row64 (b : (⟨S64, .f32⟩ : BufTy).Contents (Elt F)) : (⟨S1x64, .f32⟩ : BufTy).Contents (Elt F) :=
  shapeCast S1x64 b shapeCasts_S64_S1x64

/-- The node factor of the edge array: deg^(-1/2) at the nodes some entry targets, zero at the others. -/
def nodeFactor (e : (⟨S2x3200000, .i32⟩ : BufTy).Contents (Elt F)) : (⟨S100000, .f32⟩ : BufTy).Contents (Elt F) :=
  invs (F := F) (pos (F := F) (ends1 (F := F) e)) (Host.rsqrt (deg (F := F) (ends1 (F := F) e))) (constant S_ .f32 0x00000000#32)

/-- The per-entry weight of the edge array. -/
def weight (e : (⟨S2x3200000, .i32⟩ : BufTy).Contents (Elt F)) : (⟨S3300000, .f32⟩ : BufTy).Contents (Elt F) :=
  nrm (F := F) (nodeFactor (F := F) e) (ends0 (F := F) e) (ends1 (F := F) e)

/-- What a stretch leaves in a buffer, read off its operations one by one. -/
macro "host_read" : tactic =>
  `(tactic| (dsimp only [hostOps0, hostOps0_1, hostOps0_2, hostOps1, hostOps2]; after_results_simp))

variable (W : Valuation τ sig (Elt F))

/-! ## The first stretch: the endpoints, the degree mask and the reciprocal square root of the degree -/

theorem host0_v3 : StableHlo.after (hostOps0 (F := F)) W (Proc.devRef .tc main_v3) = ends0 (F := F) (W (Proc.devRef .tc main_arg1)) := by
  host_read; rfl
theorem host0_v6 : StableHlo.after (hostOps0 (F := F)) W (Proc.devRef .tc main_v6) = ends1 (F := F) (W (Proc.devRef .tc main_arg1)) := by
  host_read; rfl
theorem host0_v12 : StableHlo.after (hostOps0 (F := F)) W (Proc.devRef .tc main_v12) = pos (F := F) (ends1 (F := F) (W (Proc.devRef .tc main_arg1))) := by
  host_read; rfl
theorem host0_v13 : StableHlo.after (hostOps0 (F := F)) W (Proc.devRef .tc main_v13)
    = Host.rsqrt (deg (F := F) (ends1 (F := F) (W (Proc.devRef .tc main_arg1)))) := by
  host_read; rfl
theorem host0_cst : StableHlo.after (hostOps0 (F := F)) W (Proc.devRef .tc main_cst_2) = constant S_ .f32 0x00000000#32 := by
  host_read

/-! ## The second stretch (the outlined where): the node factor -/

theorem host01_v14 : StableHlo.after (hostOps0_1 (F := F)) W (Proc.devRef .tc main_v14)
    = invs (F := F) (W (Proc.devRef .tc main_v12)) (W (Proc.devRef .tc main_v13)) (W (Proc.devRef .tc main_cst_2)) := by
  after_results
  simp only [TRef.ofBuf, TRef.toBuf, cast_eq]
  rfl

/-! ## The third stretch: the per-entry weight and the four biases as rows -/

theorem host02_v29 : StableHlo.after (hostOps0_2 (F := F)) W (Proc.devRef .tc main_v29)
    = nrm (F := F) (W (Proc.devRef .tc main_v14)) (W (Proc.devRef .tc main_v3)) (W (Proc.devRef .tc main_v6)) := by
  host_read; rfl
theorem host02_v30 : StableHlo.after (hostOps0_2 (F := F)) W (Proc.devRef .tc main_v30) = row16 (F := F) (W (Proc.devRef .tc main_arg3)) := by
  host_read; rfl
theorem host02_v31 : StableHlo.after (hostOps0_2 (F := F)) W (Proc.devRef .tc main_v31) = row16 (F := F) (W (Proc.devRef .tc main_arg7)) := by
  host_read; rfl
theorem host02_v32 : StableHlo.after (hostOps0_2 (F := F)) W (Proc.devRef .tc main_v32) = row64 (F := F) (W (Proc.devRef .tc main_arg5)) := by
  host_read; rfl
theorem host02_v33 : StableHlo.after (hostOps0_2 (F := F)) W (Proc.devRef .tc main_v33) = row64 (F := F) (W (Proc.devRef .tc main_arg9)) := by
  host_read; rfl

/-- The three stretches before the first region, together: the per-entry weight of the edge array. -/
theorem host_pre_v29 : StableHlo.after (hostOps0_2 (F := F)) (StableHlo.after (hostOps0_1 (F := F)) (StableHlo.after (hostOps0 (F := F)) W))
      (Proc.devRef .tc main_v29) = weight (F := F) (W (Proc.devRef .tc main_arg1)) := by
  dsimp only [hostOps0, hostOps0_1, hostOps0_2]
  after_results_simp
  simp only [TRef.ofBuf, TRef.toBuf, cast_eq]
  rfl

/-! ## Between the regions: the two aggregations -/

theorem host1_v47 : StableHlo.after (hostOps1 (F := F)) W (Proc.devRef .tc main_v47)
    = agg16 (F := F) (W (Proc.devRef .tc main_v3)) (W (Proc.devRef .tc main_v6)) (W (Proc.devRef .tc main_v29)) (W (Proc.devRef .tc main_v34_0)) := by
  host_read; rfl
theorem host2_v61 : StableHlo.after (hostOps2 (F := F)) W (Proc.devRef .tc main_v61)
    = agg64 (F := F) (W (Proc.devRef .tc main_v3)) (W (Proc.devRef .tc main_v6)) (W (Proc.devRef .tc main_v29)) (W (Proc.devRef .tc main_v48_0)) := by
  host_read; rfl

end Cert.KernelIdeal.Chain

end
-- ==== Proof.Network.lean ====
/-
  The whole network as one function of the ten argument arrays, over the extended reals.

  With the edge array e giving sources S, targets D and per-entry weights N (the self loops appended):
    hidden  = relu (agg16 S D N (x·w1) + b1) + (x·tw1 + tb1)                       -- [100000, 16]
    network = relu (agg64 S D N (hidden·w2) + b2) + (hidden·tw2 + tb2)             -- [100000, 64]
  the biases as one-row matrices repeated down the rows.
-/
import proofs.«102944_j45518063403398_1_alg».proof.Proof.Chain
import proofs.«102944_j45518063403398_1_alg».proof.Proof.LibDenseRows

noncomputable section

namespace Cert.KernelIdeal.Chain

open Cert.KernelIdeal Cert.Gcn
open Idealize.ShloMosaic

/-- The hidden layer. -/
def hidden (x : Mat 100000 128) (e : (⟨S2x3200000, .i32⟩ : BufTy).Contents (Elt Ideal)) (w1 : Mat 128 16)
    (b1 : (⟨S16, .f32⟩ : BufTy).Contents (Elt Ideal)) (tw1 : Mat 128 16) (tb1 : (⟨S16, .f32⟩ : BufTy).Contents (Elt Ideal)) : Mat 100000 16 :=
  rect (agg16 (F := Ideal) (ends0 (F := Ideal) e) (ends1 (F := Ideal) e) (weight (F := Ideal) e) (lin x w1))
    (row16 (F := Ideal) b1) (affine x tw1 (row16 (F := Ideal) tb1))

/-- The output layer over a hidden layer h. -/
def outOf (h : Mat 100000 16) (e : (⟨S2x3200000, .i32⟩ : BufTy).Contents (Elt Ideal)) (w2 : Mat 16 64)
    (b2 : (⟨S64, .f32⟩ : BufTy).Contents (Elt Ideal)) (tw2 : Mat 16 64) (tb2 : (⟨S64, .f32⟩ : BufTy).Contents (Elt Ideal)) : Mat 100000 64 :=
  rect (agg64 (F := Ideal) (ends0 (F := Ideal) e) (ends1 (F := Ideal) e) (weight (F := Ideal) e) (lin h w2))
    (row64 (F := Ideal) b2) (affine h tw2 (row64 (F := Ideal) tb2))

/-- The network: the output layer over the hidden layer. Arguments in @main's order. -/
def network (x : Mat 100000 128) (e : (⟨S2x3200000, .i32⟩ : BufTy).Contents (Elt Ideal)) (w1 : Mat 128 16)
    (b1 : (⟨S16, .f32⟩ : BufTy).Contents (Elt Ideal)) (w2 : Mat 16 64) (b2 : (⟨S64, .f32⟩ : BufTy).Contents (Elt Ideal))
    (tw1 : Mat 128 16) (tb1 : (⟨S16, .f32⟩ : BufTy).Contents (Elt Ideal)) (tw2 : Mat 16 64)
    (tb2 : (⟨S64, .f32⟩ : BufTy).Contents (Elt Ideal)) : Mat 100000 64 :=
  outOf (hidden x e w1 b1 tw1 tb1) e w2 b2 tw2 tb2

theorem agg16_congr {s s' d d' : (⟨S3300000, .i32⟩ : BufTy).Contents (Elt Ideal)} {n n' : (⟨S3300000, .f32⟩ : BufTy).Contents (Elt Ideal)}
    {x x' : (⟨S100000x16, .f32⟩ : BufTy).Contents (Elt Ideal)} (h1 : s = s') (h2 : d = d') (h3 : n = n') (h4 : x = x') :
    agg16 (F := Ideal) s d n x = agg16 (F := Ideal) s' d' n' x' := by subst h1 h2 h3 h4; rfl
theorem agg64_congr {s s' d d' : (⟨S3300000, .i32⟩ : BufTy).Contents (Elt Ideal)} {n n' : (⟨S3300000, .f32⟩ : BufTy).Contents (Elt Ideal)}
    {x x' : (⟨S100000x64, .f32⟩ : BufTy).Contents (Elt Ideal)} (h1 : s = s') (h2 : d = d') (h3 : n = n') (h4 : x = x') :
    agg64 (F := Ideal) s d n x = agg64 (F := Ideal) s' d' n' x' := by subst h1 h2 h3 h4; rfl

end Cert.KernelIdeal.Chain

namespace Cert.Gcn

theorem affine_congr {A K C : Nat} {x x' : Mat A K} {w w' : Mat K C} {r r' : Mat 1 C} (h1 : x = x') (h2 : w = w') (h3 : r = r') :
    affine x w r = affine x' w' r' := by subst h1 h2 h3; rfl
theorem rect_congr {A C : Nat} {a a' : Mat A C} {r r' : Mat 1 C} {d d' : Mat A C} (h1 : a = a') (h2 : r = r') (h3 : d = d') :
    rect a r d = rect a' r' d' := by subst h1 h2 h3; rfl

end Cert.Gcn

end
-- ==== Proof.KernelValue.lean ====
/-
  The contents of @main's buffers at each boundary between its segments, as functions of the launch arrays.

  @main is three host stretches, the first region, a stretch, the second region, a stretch, the third region.  A host stretch
  leaves in each buffer it writes the stretch's function of the buffers it reads and leaves the others alone; a region
  leaves in its result arrays the region's function of the arrays it was entered with and leaves the others alone.  Folding
  these from the launch memory to the return: the result buffer holds 'network' of the ten argument arrays.
-/
import proofs.«102944_j45518063403398_1_alg».proof.Proof.Region0
import proofs.«102944_j45518063403398_1_alg».proof.Proof.Region1
import proofs.«102944_j45518063403398_1_alg».proof.Proof.Region2
import proofs.«102944_j45518063403398_1_alg».proof.Proof.Network

set_option maxRecDepth 16384

noncomputable section

namespace Cert.KernelIdeal.Out

open Cert.KernelIdeal Cert.KernelIdeal.Gen Cert.KernelIdeal.Chain Cert.Gcn
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-! ## Region 0's entry: what the three host stretches before it leave -/

theorem W3_v3 (c : Dev nD) : W3 m ρ c (Proc.devRef .tc main_v3) = ends0 (F := Ideal) (m ((c : Thread nD τ).loc main_arg1)) := by
  dsimp only [W3, W2, W1, W0, hostOps0, hostOps0_1, hostOps0_2]
  after_results_simp <;> first | rfl | (simp only [TRef.ofBuf, TRef.toBuf, cast_eq]; rfl)
theorem W3_v6 (c : Dev nD) : W3 m ρ c (Proc.devRef .tc main_v6) = ends1 (F := Ideal) (m ((c : Thread nD τ).loc main_arg1)) := by
  dsimp only [W3, W2, W1, W0, hostOps0, hostOps0_1, hostOps0_2]
  after_results_simp <;> first | rfl | (simp only [TRef.ofBuf, TRef.toBuf, cast_eq]; rfl)
theorem W3_v29 (c : Dev nD) : W3 m ρ c (Proc.devRef .tc main_v29) = weight (F := Ideal) (m ((c : Thread nD τ).loc main_arg1)) :=
  host_pre_v29 (F := Ideal) (W0 m ρ c)
theorem W3_v30 (c : Dev nD) : W3 m ρ c (Proc.devRef .tc main_v30) = row16 (F := Ideal) (m ((c : Thread nD τ).loc main_arg3)) := by
  dsimp only [W3, W2, W1, W0, hostOps0, hostOps0_1, hostOps0_2]
  after_results_simp <;> first | rfl | (simp only [TRef.ofBuf, TRef.toBuf, cast_eq]; rfl)
theorem W3_v31 (c : Dev nD) : W3 m ρ c (Proc.devRef .tc main_v31) = row16 (F := Ideal) (m ((c : Thread nD τ).loc main_arg7)) := by
  dsimp only [W3, W2, W1, W0, hostOps0, hostOps0_1, hostOps0_2]
  after_results_simp <;> first | rfl | (simp only [TRef.ofBuf, TRef.toBuf, cast_eq]; rfl)
theorem W3_v32 (c : Dev nD) : W3 m ρ c (Proc.devRef .tc main_v32) = row64 (F := Ideal) (m ((c : Thread nD τ).loc main_arg5)) := by
  dsimp only [W3, W2, W1, W0, hostOps0, hostOps0_1, hostOps0_2]
  after_results_simp <;> first | rfl | (simp only [TRef.ofBuf, TRef.toBuf, cast_eq]; rfl)
theorem W3_v33 (c : Dev nD) : W3 m ρ c (Proc.devRef .tc main_v33) = row64 (F := Ideal) (m ((c : Thread nD τ).loc main_arg9)) := by
  dsimp only [W3, W2, W1, W0, hostOps0, hostOps0_1, hostOps0_2]
  after_results_simp <;> first | rfl | (simp only [TRef.ofBuf, TRef.toBuf, cast_eq]; rfl)
theorem W3_arg0 (c : Dev nD) : W3 m ρ c (Proc.devRef .tc main_arg0) = (m ((c : Thread nD τ).loc main_arg0)) := by
  dsimp only [W3, W2, W1, W0, hostOps0, hostOps0_1, hostOps0_2]
  after_results_simp <;> first | rfl | (simp only [TRef.ofBuf, TRef.toBuf, cast_eq]; rfl)
theorem W3_arg2 (c : Dev nD) : W3 m ρ c (Proc.devRef .tc main_arg2) = (m ((c : Thread nD τ).loc main_arg2)) := by
  dsimp only [W3, W2, W1, W0, hostOps0, hostOps0_1, hostOps0_2]
  after_results_simp <;> first | rfl | (simp only [TRef.ofBuf, TRef.toBuf, cast_eq]; rfl)
theorem W3_arg4 (c : Dev nD) : W3 m ρ c (Proc.devRef .tc main_arg4) = (m ((c : Thread nD τ).loc main_arg4)) := by
  dsimp only [W3, W2, W1, W0, hostOps0, hostOps0_1, hostOps0_2]
  after_results_simp <;> first | rfl | (simp only [TRef.ofBuf, TRef.toBuf, cast_eq]; rfl)
theorem W3_arg6 (c : Dev nD) : W3 m ρ c (Proc.devRef .tc main_arg6) = (m ((c : Thread nD τ).loc main_arg6)) := by
  dsimp only [W3, W2, W1, W0, hostOps0, hostOps0_1, hostOps0_2]
  after_results_simp <;> first | rfl | (simp only [TRef.ofBuf, TRef.toBuf, cast_eq]; rfl)
theorem W3_arg8 (c : Dev nD) : W3 m ρ c (Proc.devRef .tc main_arg8) = (m ((c : Thread nD τ).loc main_arg8)) := by
  dsimp only [W3, W2, W1, W0, hostOps0, hostOps0_1, hostOps0_2]
  after_results_simp <;> first | rfl | (simp only [TRef.ofBuf, TRef.toBuf, cast_eq]; rfl)

/-! ## Region 0's exit: its two results by the region's value, the rest as entered -/

theorem W4_v34_0 (c : Dev nD) : W4 m ρ c (Proc.devRef .tc main_v34_0) = lin (m ((c : Thread nD τ).loc main_arg0)) (m ((c : Thread nD τ).loc main_arg2)) :=
  (W4_arr m ρ c 4).trans ((final0_4 (V3 m ρ) c).trans (congrArg₂ lin (W3_arg0 m ρ c) (W3_arg2 m ρ c)))
theorem W4_v34_1 (c : Dev nD) : W4 m ρ c (Proc.devRef .tc main_v34_1) = affine (m ((c : Thread nD τ).loc main_arg0)) (m ((c : Thread nD τ).loc main_arg6)) (row16 (F := Ideal) (m ((c : Thread nD τ).loc main_arg7))) :=
  (W4_arr m ρ c 5).trans ((final0_5 (V3 m ρ) c).trans (affine_congr (W3_arg0 m ρ c) (W3_arg6 m ρ c) (W3_v31 m ρ c)))
theorem W4_v3 (c : Dev nD) : W4 m ρ c (Proc.devRef .tc main_v3) = ends0 (F := Ideal) (m ((c : Thread nD τ).loc main_arg1)) :=
  (W4_of_ne m ρ c main_v3 (by decide)).trans (W3_v3 m ρ c)
theorem W4_v6 (c : Dev nD) : W4 m ρ c (Proc.devRef .tc main_v6) = ends1 (F := Ideal) (m ((c : Thread nD τ).loc main_arg1)) :=
  (W4_of_ne m ρ c main_v6 (by decide)).trans (W3_v6 m ρ c)
theorem W4_v29 (c : Dev nD) : W4 m ρ c (Proc.devRef .tc main_v29) = weight (F := Ideal) (m ((c : Thread nD τ).loc main_arg1)) :=
  (W4_of_ne m ρ c main_v29 (by decide)).trans (W3_v29 m ρ c)
theorem W4_v30 (c : Dev nD) : W4 m ρ c (Proc.devRef .tc main_v30) = row16 (F := Ideal) (m ((c : Thread nD τ).loc main_arg3)) :=
  (W4_of_ne m ρ c main_v30 (by decide)).trans (W3_v30 m ρ c)
theorem W4_v32 (c : Dev nD) : W4 m ρ c (Proc.devRef .tc main_v32) = row64 (F := Ideal) (m ((c : Thread nD τ).loc main_arg5)) :=
  (W4_of_ne m ρ c main_v32 (by decide)).trans (W3_v32 m ρ c)
theorem W4_v33 (c : Dev nD) : W4 m ρ c (Proc.devRef .tc main_v33) = row64 (F := Ideal) (m ((c : Thread nD τ).loc main_arg9)) :=
  (W4_of_ne m ρ c main_v33 (by decide)).trans (W3_v33 m ρ c)
theorem W4_arg4 (c : Dev nD) : W4 m ρ c (Proc.devRef .tc main_arg4) = (m ((c : Thread nD τ).loc main_arg4)) :=
  (W4_of_ne m ρ c main_arg4 (by decide)).trans (W3_arg4 m ρ c)
theorem W4_arg8 (c : Dev nD) : W4 m ρ c (Proc.devRef .tc main_arg8) = (m ((c : Thread nD τ).loc main_arg8)) :=
  (W4_of_ne m ρ c main_arg8 (by decide)).trans (W3_arg8 m ρ c)

/-! ## Region 1's entry: the first aggregation, the rest untouched by the stretch -/

theorem W5_v47 (c : Dev nD) : W5 m ρ c (Proc.devRef .tc main_v47) = agg16 (F := Ideal) (ends0 (F := Ideal) (m ((c : Thread nD τ).loc main_arg1))) (ends1 (F := Ideal) (m ((c : Thread nD τ).loc main_arg1))) (weight (F := Ideal) (m ((c : Thread nD τ).loc main_arg1))) (lin (m ((c : Thread nD τ).loc main_arg0)) (m ((c : Thread nD τ).loc main_arg2))) :=
  (host1_v47 (W4 m ρ c)).trans (agg16_congr (W4_v3 m ρ c) (W4_v6 m ρ c) (W4_v29 m ρ c) (W4_v34_0 m ρ c))
theorem W5_v3 (c : Dev nD) : W5 m ρ c (Proc.devRef .tc main_v3) = ends0 (F := Ideal) (m ((c : Thread nD τ).loc main_arg1)) :=
  (show StableHlo.after hostOps1 (W4 m ρ c) (Proc.devRef .tc main_v3) = W4 m ρ c (Proc.devRef .tc main_v3) by host_read).trans (W4_v3 m ρ c)
theorem W5_v6 (c : Dev nD) : W5 m ρ c (Proc.devRef .tc main_v6) = ends1 (F := Ideal) (m ((c : Thread nD τ).loc main_arg1)) :=
  (show StableHlo.after hostOps1 (W4 m ρ c) (Proc.devRef .tc main_v6) = W4 m ρ c (Proc.devRef .tc main_v6) by host_read).trans (W4_v6 m ρ c)
theorem W5_v29 (c : Dev nD) : W5 m ρ c (Proc.devRef .tc main_v29) = weight (F := Ideal) (m ((c : Thread nD τ).loc main_arg1)) :=
  (show StableHlo.after hostOps1 (W4 m ρ c) (Proc.devRef .tc main_v29) = W4 m ρ c (Proc.devRef .tc main_v29) by host_read).trans (W4_v29 m ρ c)
theorem W5_v30 (c : Dev nD) : W5 m ρ c (Proc.devRef .tc main_v30) = row16 (F := Ideal) (m ((c : Thread nD τ).loc main_arg3)) :=
  (show StableHlo.after hostOps1 (W4 m ρ c) (Proc.devRef .tc main_v30) = W4 m ρ c (Proc.devRef .tc main_v30) by host_read).trans (W4_v30 m ρ c)
theorem W5_v32 (c : Dev nD) : W5 m ρ c (Proc.devRef .tc main_v32) = row64 (F := Ideal) (m ((c : Thread nD τ).loc main_arg5)) :=
  (show StableHlo.after hostOps1 (W4 m ρ c) (Proc.devRef .tc main_v32) = W4 m ρ c (Proc.devRef .tc main_v32) by host_read).trans (W4_v32 m ρ c)
theorem W5_v33 (c : Dev nD) : W5 m ρ c (Proc.devRef .tc main_v33) = row64 (F := Ideal) (m ((c : Thread nD τ).loc main_arg9)) :=
  (show StableHlo.after hostOps1 (W4 m ρ c) (Proc.devRef .tc main_v33) = W4 m ρ c (Proc.devRef .tc main_v33) by host_read).trans (W4_v33 m ρ c)
theorem W5_v34_1 (c : Dev nD) : W5 m ρ c (Proc.devRef .tc main_v34_1) = affine (m ((c : Thread nD τ).loc main_arg0)) (m ((c : Thread nD τ).loc main_arg6)) (row16 (F := Ideal) (m ((c : Thread nD τ).loc main_arg7))) :=
  (show StableHlo.after hostOps1 (W4 m ρ c) (Proc.devRef .tc main_v34_1) = W4 m ρ c (Proc.devRef .tc main_v34_1) by host_read).trans (W4_v34_1 m ρ c)
theorem W5_arg4 (c : Dev nD) : W5 m ρ c (Proc.devRef .tc main_arg4) = (m ((c : Thread nD τ).loc main_arg4)) :=
  (show StableHlo.after hostOps1 (W4 m ρ c) (Proc.devRef .tc main_arg4) = W4 m ρ c (Proc.devRef .tc main_arg4) by host_read).trans (W4_arg4 m ρ c)
theorem W5_arg8 (c : Dev nD) : W5 m ρ c (Proc.devRef .tc main_arg8) = (m ((c : Thread nD τ).loc main_arg8)) :=
  (show StableHlo.after hostOps1 (W4 m ρ c) (Proc.devRef .tc main_arg8) = W4 m ρ c (Proc.devRef .tc main_arg8) by host_read).trans (W4_arg8 m ρ c)

/-! ## Region 1's exit -/

theorem W6_v48_0 (c : Dev nD) : W6 m ρ c (Proc.devRef .tc main_v48_0) = lin (hidden (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7))) (m ((c : Thread nD τ).loc main_arg4)) :=
  (W6_arr m ρ c 6).trans ((final1_6 (V5 m ρ) c).trans
    (congrArg₂ lin (rect_congr (W5_v47 m ρ c) (W5_v30 m ρ c) (W5_v34_1 m ρ c)) (W5_arg4 m ρ c)))
theorem W6_v48_1 (c : Dev nD) : W6 m ρ c (Proc.devRef .tc main_v48_1) = affine (hidden (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7))) (m ((c : Thread nD τ).loc main_arg8)) (row64 (F := Ideal) (m ((c : Thread nD τ).loc main_arg9))) :=
  (W6_arr m ρ c 7).trans ((final1_7 (V5 m ρ) c).trans
    (affine_congr (rect_congr (W5_v47 m ρ c) (W5_v30 m ρ c) (W5_v34_1 m ρ c)) (W5_arg8 m ρ c) (W5_v33 m ρ c)))
theorem W6_v3 (c : Dev nD) : W6 m ρ c (Proc.devRef .tc main_v3) = ends0 (F := Ideal) (m ((c : Thread nD τ).loc main_arg1)) :=
  (W6_of_ne m ρ c main_v3 (by decide)).trans (W5_v3 m ρ c)
theorem W6_v6 (c : Dev nD) : W6 m ρ c (Proc.devRef .tc main_v6) = ends1 (F := Ideal) (m ((c : Thread nD τ).loc main_arg1)) :=
  (W6_of_ne m ρ c main_v6 (by decide)).trans (W5_v6 m ρ c)
theorem W6_v29 (c : Dev nD) : W6 m ρ c (Proc.devRef .tc main_v29) = weight (F := Ideal) (m ((c : Thread nD τ).loc main_arg1)) :=
  (W6_of_ne m ρ c main_v29 (by decide)).trans (W5_v29 m ρ c)
theorem W6_v32 (c : Dev nD) : W6 m ρ c (Proc.devRef .tc main_v32) = row64 (F := Ideal) (m ((c : Thread nD τ).loc main_arg5)) :=
  (W6_of_ne m ρ c main_v32 (by decide)).trans (W5_v32 m ρ c)

/-! ## Region 2's entry: the second aggregation -/

theorem W7_v61 (c : Dev nD) : W7 m ρ c (Proc.devRef .tc main_v61) = agg64 (F := Ideal) (ends0 (F := Ideal) (m ((c : Thread nD τ).loc main_arg1))) (ends1 (F := Ideal) (m ((c : Thread nD τ).loc main_arg1))) (weight (F := Ideal) (m ((c : Thread nD τ).loc main_arg1))) (lin (hidden (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7))) (m ((c : Thread nD τ).loc main_arg4))) :=
  (host2_v61 (W6 m ρ c)).trans (agg64_congr (W6_v3 m ρ c) (W6_v6 m ρ c) (W6_v29 m ρ c) (W6_v48_0 m ρ c))
theorem W7_v32 (c : Dev nD) : W7 m ρ c (Proc.devRef .tc main_v32) = row64 (F := Ideal) (m ((c : Thread nD τ).loc main_arg5)) :=
  (show StableHlo.after hostOps2 (W6 m ρ c) (Proc.devRef .tc main_v32) = W6 m ρ c (Proc.devRef .tc main_v32) by host_read).trans (W6_v32 m ρ c)
theorem W7_v48_1 (c : Dev nD) : W7 m ρ c (Proc.devRef .tc main_v48_1) = affine (hidden (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7))) (m ((c : Thread nD τ).loc main_arg8)) (row64 (F := Ideal) (m ((c : Thread nD τ).loc main_arg9))) :=
  (show StableHlo.after hostOps2 (W6 m ρ c) (Proc.devRef .tc main_v48_1) = W6 m ρ c (Proc.devRef .tc main_v48_1) by host_read).trans (W6_v48_1 m ρ c)

/-! ## Region 2's exit: the result -/

/-- The result buffer at the last boundary is the network of the launch arrays. -/
theorem W8_result (c : Dev nD) : W8 m ρ c (Proc.devRef .tc main_v62) = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W8_arr m ρ c 3).trans ((final2_3 (V7 m ρ) c).trans (rect_congr (W7_v61 m ρ c) (W7_v32 m ρ c) (W7_v48_1 m ρ c)))

end Cert.KernelIdeal.Out

end
-- ==== Proof.RefValue.lean ====
/-
  The reference's result is the network of its argument arrays.

  The reference computes the edge endpoints, the degrees, the node factors and the per-entry weights once per layer with the
  same host operations as the kernel's program does once; its two aggregations are the same gather / scale / scatter-add
  chains.  So each of its stages that belongs to that chain IS the corresponding named function of the edge array (the two
  programs' dimension records are the same records).  Its dense stages are the host spellings of 'lin', 'affine' and 'rect':
  a dot_general, a bias broadcast along the new row axis and then down the rows, a maximum against a broadcast zero.
-/
import proofs.«102944_j45518063403398_1_alg».proof.Proof.RefRead
import proofs.«102944_j45518063403398_1_alg».proof.Proof.Network

set_option maxRecDepth 16384

noncomputable section

namespace Cert.ReferenceIdeal.Out

open Cert.ReferenceIdeal Cert.ReferenceIdeal.ReadP Cert.Gcn
open Cert.KernelIdeal.Chain (ends0 ends1 wrap col deg pos invs nrm nodeFactor weight agg16 agg64 row16 row64 hidden outOf network agg16_congr agg64_congr)
open Idealize.ShloMosaic Idealize.ShloMosaic.ValueIdx

/-! ## The shared chain, stage by stage, for any float family -/

section Chain
variable {F : FTy → Type} [FloatOps F]
variable (x1 : (⟨S2x3200000, .i32⟩ : BufTy).Contents (Elt F))

theorem v3_eq : val_main_v3 (F := F) x1 = ends0 (F := F) x1 := rfl
theorem v6_eq : val_main_v6 (F := F) x1 = ends1 (F := F) x1 := rfl
theorem v19_eq : val_main_v19 (F := F) x1 = nodeFactor (F := F) x1 := rfl
theorem v34_eq : val_main_v34 (F := F) x1 = weight (F := F) x1 := rfl
theorem v65_eq : val_main_v65 (F := F) x1 = nodeFactor (F := F) x1 := rfl
theorem v80_eq : val_main_v80 (F := F) x1 = weight (F := F) x1 := rfl

/-- The first aggregation, of whatever [100000, 16] array the gather reads. -/
theorem v47_eq (x0 : (⟨S100000x128, .f32⟩ : BufTy).Contents (Elt F)) (x2 : (⟨S128x16, .f32⟩ : BufTy).Contents (Elt F)) :
    val_main_v47 (F := F) x0 x1 x2
      = agg16 (F := F) (ends0 (F := F) x1) (ends1 (F := F) x1) (weight (F := F) x1) (val_main_v11 (F := F) x0 x2) := by
  unfold val_main_v47 val_main_v46 val_main_v45 val_main_v44 val_main_v43 val_main_v42 val_main_v41 val_main_v40 val_main_v39
    val_main_v38 val_main_v37 val_main_v36 val_main_v35 val_main_c_7 val_main_c_6 val_main_cst_8
  rw [v34_eq, v3_eq, v6_eq]
  rfl

/-- The second aggregation. -/
theorem v93_eq (x0 : (⟨S100000x128, .f32⟩ : BufTy).Contents (Elt F)) (x2 : (⟨S128x16, .f32⟩ : BufTy).Contents (Elt F)) (x3 : (⟨S16, .f32⟩ : BufTy).Contents (Elt F)) (x4 : (⟨S16x64, .f32⟩ : BufTy).Contents (Elt F)) (x6 : (⟨S128x16, .f32⟩ : BufTy).Contents (Elt F)) (x7 : (⟨S16, .f32⟩ : BufTy).Contents (Elt F)) :
    val_main_v93 (F := F) x0 x1 x2 x3 x4 x6 x7
      = agg64 (F := F) (ends0 (F := F) x1) (ends1 (F := F) x1) (weight (F := F) x1) (val_main_v57 (F := F) x0 x1 x2 x3 x4 x6 x7) := by
  unfold val_main_v93 val_main_v92 val_main_v91 val_main_v90 val_main_v89 val_main_v88 val_main_v87 val_main_v86 val_main_v85
    val_main_v84 val_main_v83 val_main_v82 val_main_v81 val_main_c_18 val_main_c_17 val_main_cst_19
  rw [v80_eq, v3_eq, v6_eq]
  rfl

end Chain

/-! ## The dense stages, over the extended reals -/

variable (x0 : (⟨S100000x128, .f32⟩ : BufTy).Contents (Elt Ideal)) (x1 : (⟨S2x3200000, .i32⟩ : BufTy).Contents (Elt Ideal)) (x2 : (⟨S128x16, .f32⟩ : BufTy).Contents (Elt Ideal)) (x3 : (⟨S16, .f32⟩ : BufTy).Contents (Elt Ideal))
  (x4 : (⟨S16x64, .f32⟩ : BufTy).Contents (Elt Ideal)) (x5 : (⟨S64, .f32⟩ : BufTy).Contents (Elt Ideal)) (x6 : (⟨S128x16, .f32⟩ : BufTy).Contents (Elt Ideal)) (x7 : (⟨S16, .f32⟩ : BufTy).Contents (Elt Ideal)) (x8 : (⟨S16x64, .f32⟩ : BufTy).Contents (Elt Ideal)) (x9 : (⟨S64, .f32⟩ : BufTy).Contents (Elt Ideal))

/-- A bias as one row: the reference's broadcast along the new axis is the kernel program's recast. -/
theorem v48_row : val_main_v48 (F := Ideal) x3 = row16 (F := Ideal) x3 :=
  (rowCast_eq_rowBcast (C := 16) x3 _ _).symm
theorem v8_row : val_main_v8 (F := Ideal) x7 = row16 (F := Ideal) x7 :=
  (rowCast_eq_rowBcast (C := 16) x7 _ _).symm
theorem v94_row : val_main_v94 (F := Ideal) x5 = row64 (F := Ideal) x5 :=
  (rowCast_eq_rowBcast (C := 64) x5 _ _).symm
theorem v54_row : val_main_v54 (F := Ideal) x9 = row64 (F := Ideal) x9 :=
  (rowCast_eq_rowBcast (C := 64) x9 _ _).symm

/-- x·w1. -/
theorem v11_lin : val_main_v11 (F := Ideal) x0 x2 = lin x0 x2 := by
  unfold val_main_v11
  exact dotGeneral_eq_lin (A := 100000) (K := 128) (C := 16) .single x0 x2

/-- x·tw1 + tb1. -/
theorem v10_affine : val_main_v10 (F := Ideal) x0 x6 x7 = affine x0 x6 (row16 (F := Ideal) x7) := by
  unfold val_main_v10 val_main_v9 val_main_v7
  refine (host_affine (A := 100000) (K := 128) (C := 16) .single x0 x6 (val_main_v8 (F := Ideal) x7) _).trans ?_
  exact affine_congr rfl rfl (v8_row x7)

/-- The hidden layer. -/
theorem v52_hidden : val_main_v52 (F := Ideal) x0 x1 x2 x3 x6 x7 = hidden x0 x1 x2 x3 x6 x7 := by
  unfold val_main_v52 val_main_v51 val_main_v50 val_main_v49 val_main_call1_v0 val_main_call1_cst
  refine (host_rect (A := 100000) (C := 16) (val_main_v47 (F := Ideal) x0 x1 x2) (val_main_v10 (F := Ideal) x0 x6 x7)
    (val_main_v48 (F := Ideal) x3) _ _).trans ?_
  unfold Cert.KernelIdeal.Chain.hidden
  exact rect_congr ((v47_eq (F := Ideal) x1 x0 x2).trans (agg16_congr rfl rfl rfl (v11_lin x0 x2))) (v48_row x3) (v10_affine x0 x6 x7)

/-- hidden·w2. -/
theorem v57_lin : val_main_v57 (F := Ideal) x0 x1 x2 x3 x4 x6 x7 = lin (hidden x0 x1 x2 x3 x6 x7) x4 := by
  unfold val_main_v57
  refine (dotGeneral_eq_lin (A := 100000) (K := 16) (C := 64) .single (val_main_v52 (F := Ideal) x0 x1 x2 x3 x6 x7) x4).trans ?_
  exact congrArg (fun h : Mat 100000 16 => lin h x4) (v52_hidden x0 x1 x2 x3 x6 x7)

/-- hidden·tw2 + tb2. -/
theorem v56_affine : val_main_v56 (F := Ideal) x0 x1 x2 x3 x6 x7 x8 x9 = affine (hidden x0 x1 x2 x3 x6 x7) x8 (row64 (F := Ideal) x9) := by
  unfold val_main_v56 val_main_v55 val_main_v53
  refine (host_affine (A := 100000) (K := 16) (C := 64) .single (val_main_v52 (F := Ideal) x0 x1 x2 x3 x6 x7) x8
    (val_main_v54 (F := Ideal) x9) _).trans ?_
  exact affine_congr (v52_hidden x0 x1 x2 x3 x6 x7) rfl (v54_row x9)

/-- THE REFERENCE'S RESULT is the network of its arguments. -/
theorem result_eq : val_main_v98 (F := Ideal) x0 x1 x2 x3 x4 x5 x6 x7 x8 x9 = network x0 x1 x2 x3 x4 x5 x6 x7 x8 x9 := by
  unfold val_main_v98 val_main_v97 val_main_v96 val_main_v95 val_main_call3_v0 val_main_call3_cst
  refine (host_rect (A := 100000) (C := 64) (val_main_v93 (F := Ideal) x0 x1 x2 x3 x4 x6 x7) (val_main_v56 (F := Ideal) x0 x1 x2 x3 x6 x7 x8 x9)
    (val_main_v94 (F := Ideal) x5) _ _).trans ?_
  unfold Cert.KernelIdeal.Chain.network Cert.KernelIdeal.Chain.outOf
  exact rect_congr ((v93_eq (F := Ideal) x1 x0 x2 x3 x4 x6 x7).trans (agg64_congr rfl rfl rfl (v57_lin x0 x1 x2 x3 x4 x6 x7)))
    (v94_row x5) (v56_affine x0 x1 x2 x3 x6 x7 x8 x9)

end Cert.ReferenceIdeal.Out

end
-- ==== Proof.lean ====
/-
  A two-layer graph convolution with linear residuals on 100000 nodes and 3200000 edges (self loops appended):
    hidden = relu (agg (x·w1) + b1) + (x·tw1 + tb1),   out = relu (agg (hidden·w2) + b2) + (hidden·tw2 + tb2),
  where agg gathers the rows of its operand at the edges' sources, scales each by deg^(-1/2)[source] · deg^(-1/2)[target]
  and scatter-adds them at the targets.

  The kernel program computes the dense parts in three row-blocked kernel regions (twenty blocks of 5000 rows: x·w1 and
  x·tw1 + tb1; then hidden, hidden·w2 and hidden·tw2 + tb2; then the output) and the edge-indexed parts on the host between
  them; the reference computes everything on the host.  Over the extended reals narrowing an operand to bf16 is the identity and a
  matrix-unit product into a zero accumulator is the host's dot_general, a row of a product depends on that row of its
  left operand only, so each region's result arrays are the whole-array functions 'lin', 'affine', 'rect' of the arrays the region
  was entered with (Proof/Region0, Region1, Region2); the host chains between the regions are the SAME operations in both programs
  and are carried as named functions, never opened (Proof/Chain).  Folding through the kernel program's eight segments, its result
  buffer holds 'network' of the ten argument arrays (Proof/KernelValue); stage by stage the reference's result is the same
  'network' (Proof/RefValue).  No algebraic law beyond the definitions is used, so the finiteness of the inputs is not needed.
  The ideal pass rewrote nothing: 'preserves' is trivial.
-/
import proofs.«102944_j45518063403398_1_alg».proof.Defs
import proofs.«102944_j45518063403398_1_alg».proof.Proof.Gen.Kernel
import proofs.«102944_j45518063403398_1_alg».proof.Proof.Gen.Kernel.Skeleton
import proofs.«102944_j45518063403398_1_alg».proof.Proof.Gen.Kernel.Launch
import proofs.«102944_j45518063403398_1_alg».proof.Proof.Gen.Kernel.Points
import proofs.«102944_j45518063403398_1_alg».proof.Proof.Gen.Kernel.Frame
import proofs.«102944_j45518063403398_1_alg».proof.Proof.Gen.KernelIdeal
import proofs.«102944_j45518063403398_1_alg».proof.Proof.Gen.KernelIdeal.Skeleton
import proofs.«102944_j45518063403398_1_alg».proof.Proof.Gen.KernelIdeal.Launch
import proofs.«102944_j45518063403398_1_alg».proof.Proof.Gen.KernelIdeal.Points
import proofs.«102944_j45518063403398_1_alg».proof.Proof.Gen.KernelIdeal.Frame
import proofs.«102944_j45518063403398_1_alg».proof.Proof.Gen.ReferenceIdeal
import proofs.«102944_j45518063403398_1_alg».proof.Proof.RefRun
import proofs.«102944_j45518063403398_1_alg».proof.Proof.RefRead
import proofs.«102944_j45518063403398_1_alg».proof.Proof.Gen.Pre_finite_inputs
import proofs.«102944_j45518063403398_1_alg».proof.Proof.KernelRun
import proofs.«102944_j45518063403398_1_alg».proof.Proof.KernelValue
import proofs.«102944_j45518063403398_1_alg».proof.Proof.RefValue
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference has no kernel: its frame is its run with the result dropped
    exact fun m ρ _ => (θ_run Cert.ReferenceIdeal.defs _ _).mono (fun _ h c => (h c).2) (Cert.ReferenceIdeal.ValueP.run (F := Ideal) m ρ)
  · -- both programs end with 'network' of the (agreeing) argument arrays in their result buffers
    intro m ρ m' ρ' _ hagree
    refine ⟨fun c => Cert.KernelIdeal.Chain.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
        (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
    · exact (θ_run Cert.KernelIdeal.defs _ _).mono
        (fun r h c => ⟨(h c).1.trans (Cert.KernelIdeal.Out.W8_result m ρ c), (h c).2⟩) (Cert.KernelIdeal.Out.run_result m ρ)
    · refine (θ_run Cert.ReferenceIdeal.defs _ _).mono (fun r h c => ⟨?_, (h c).2⟩) (Cert.ReferenceIdeal.ValueP.run (F := Ideal) m' ρ')
      obtain ⟨h0, h1, h2, h3, h4, h5, h6, h7, h8, h9⟩ := hagree c
      rw [(h c).1, Cert.ReferenceIdeal.ReadP.val_main_v98_eq, Cert.ReferenceIdeal.Out.result_eq, h0, h1, h2, h3, h4, h5, h6, h7, h8, h9]⟩

end Cert.Proof

end
